-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x128 : Shape := ⟨2, ![12288, 128]⟩
abbrev S256x2 : Shape := ⟨2, ![256, 2]⟩
abbrev S128x128 : Shape := ⟨2, ![128, 128]⟩
abbrev S128 : Shape := ⟨1, ![128]⟩
abbrev S128x12 : Shape := ⟨2, ![128, 12]⟩
abbrev S12 : Shape := ⟨1, ![12]⟩
abbrev S128x5 : Shape := ⟨2, ![128, 5]⟩
abbrev S5 : Shape := ⟨1, ![5]⟩
abbrev S256x128 : Shape := ⟨2, ![256, 128]⟩
abbrev S_ : Shape := ⟨0, ![]⟩

class Facts : Prop where
  bcast_S_S12288x128 : S_.BroadcastsInDim S12288x128 (![] : Fin 0 → Fin S12288x128.rank)
  reducesTo_S12288x128_S_d0_1 : S12288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x12 : S_.BroadcastsInDim S128x12 (![] : Fin 0 → Fin S128x12.rank)
  reducesTo_S128x12_S_d0_1 : S128x12.ReducesTo [0, 1] S_
  bcast_S_S12 : S_.BroadcastsInDim S12 (![] : Fin 0 → Fin S12.rank)
  reducesTo_S12_S_d0 : S12.ReducesTo [0] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg12 : FVec F S128x5 .f32) (main_arg13 : FVec F S5 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x5 .f32 := Host.absf main_arg12
  let main_cst_20 : FVec F S_ .f32 := constant S_ .f32 0x7F800000#32
  let main_v55 : FVec F S128x5 .f32 := broadcastInDim S128x5 ![] bcast_S_S128x5 main_cst_20
  let main_v56 : IVec S128x5 1 := cmpf .olt main_v54 main_v55
  let main_c_21 : IVec S_ 1 := constantI S_ 1 1#1
  let main_v57 : IVec S_ 1 := (fun x v => Host.reduce IntOp.andi x v reducesTo_S128x5_S_d0_1 h_S_) main_v56 main_c_21
  let main_v58 : IVec S_ 1 := andi main_v53 main_v57
  let main_v59 : FVec F S5 .f32 := Host.absf main_arg13
  let main_cst_22 : FVec F S_ .f32 := constant S_ .f32 0x7F800000#32
  let main_v60 : FVec F S5 .f32 := broadcastInDim S5 ![] bcast_S_S5 main_cst_22
  let main_v61 : IVec S5 1 := cmpf .olt main_v59 main_v60
  let main_c_23 : IVec S_ 1 := constantI S_ 1 1#1
  let main_v62 : IVec S_ 1 := (fun x v => Host.reduce IntOp.andi x v reducesTo_S5_S_d0 h_S_) main_v61 main_c_23
  let main_v63 : IVec S_ 1 := andi main_v58 main_v62
  main_v63

def fn_part2 {F : FTy → Type} [FloatOps F] (main_arg8 : FVec F S128x5 .f32) (main_arg9 : FVec F S5 .f32) (main_arg10 : FVec F S256x128 .f32) (main_arg11 : FVec F S128 .f32) (main_arg12 : FVec F S128x5 .f32) (main_arg13 : FVec F S5 .f32) (main_v33 : IVec S_ 1) : IVec S_ 1 :=
  let main_v34 : FVec F S128x5 .f32 := Host.absf main_arg8
  let main_cst_12 : FVec F S_ .f32 := constant S_ .f32 0x7F800000#32
  let main_v35 : FVec F S128x5 .f32 := broadcastInDim S128x5 ![] bcast_S_S128x5 main_cst_12
  let main_v36 : IVec S128x5 1 := cmpf .olt main_v34 main_v35
  let main_c_13 : IVec S_ 1 := constantI S_ 1 1#1
  let main_v37 : IVec S_ 1 := (fun x v => Host.reduce IntOp.andi x v reducesTo_S128x5_S_d0_1 h_S_) main_v36 main_c_13
  let main_v38 : IVec S_ 1 := andi main_v33 main_v37
  let main_v39 : FVec F S5 .f32 := Host.absf main_arg9
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S12 .f32) (main_arg6 : FVec F S128x128 .f32) (main_arg7 : FVec F S128 .f32) (main_arg8 : FVec F S128x5 .f32) (main_arg9 : FVec F S5 .f32) (main_arg10 : FVec F S256x128 .f32) (main_arg11 : FVec F S128 .f32) (main_arg12 : FVec F S128x5 .f32) (main_arg13 : FVec F S5 .f32) (main_v13 : IVec S_ 1) (main_v16 : IVec S128x12 1) : IVec S_ 1 :=
  let main_c_5 : IVec S_ 1 := constantI S_ 1 1#1
  let main_v17 : IVec S_ 1 := (fun x v => Host.reduce IntOp.andi x v reducesTo_S128x12_S_d0_1 h_S_) main_v16 main_c_5
  let main_v18 : IVec S_ 1 := andi main_v13 main_v17
  let main_v19 : FVec F S12 .f32 := Host.absf main_arg5
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S12288x128 .f32) (main_arg1 : IVec S256x2 32) (main_arg2 : FVec F S128x128 .f32) (main_arg3 : FVec F S128 .f32) (main_arg4 : FVec F S128x12 .f32) (main_arg5 : FVec F S12 .f32) (main_arg6 : FVec F S128x128 .f32) (main_arg7 : FVec F S128 .f32) (main_arg8 : FVec F S128x5 .f32) (main_arg9 : FVec F S5 .f32) (main_arg10 : FVec F S256x128 .f32) (main_arg11 : FVec F S128 .f32) (main_arg12 : FVec F S128x5 .f32) (main_arg13 : FVec F S5 .f32) : IVec S_ 1 :=
  let main_v0 : FVec F S12288x128 .f32 := Host.absf main_arg0
  let main_cst : FVec F S_ .f32 := constant S_ .f32 0x7F800000#32
  let main_v1 : FVec F S12288x128 .f32 := broadcastInDim S12288x128 ![] bcast_S_S12288x128 main_cst
  let main_v2 : IVec S12288x128 1 := cmpf .olt main_v0 main_v1
  let main_c : IVec S_ 1 := constantI S_ 1 1#1
  let main_v3 : IVec S_ 1 := (fun x v => Host.reduce IntOp.andi x v reducesTo_S12288x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x12 .f32 := Host.absf main_arg4
  let main_cst_4 : FVec F S_ .f32 := constant S_ .f32 0x7F800000#32
  let main_v15 : FVec F S128x12 .f32 := broadcastInDim S128x12 ![] bcast_S_S128x12 main_cst_4
  let main_v16 : IVec S128x12 1 := cmpf .olt main_v14 main_v15
  fn_part1 (F := F) main_arg5 main_arg6 main_arg7 main_arg8 main_arg9 main_arg10 main_arg11 main_arg12 main_arg13 main_v13 main_v16
-- ==== Kernel.lean ====
abbrev S12288x128 : Shape := ⟨2, ![12288, 128]⟩
abbrev S256x2 : Shape := ⟨2, ![256, 2]⟩
abbrev S128x128 : Shape := ⟨2, ![128, 128]⟩
abbrev S128 : Shape := ⟨1, ![128]⟩
abbrev S128x12 : Shape := ⟨2, ![128, 12]⟩
abbrev S12 : Shape := ⟨1, ![12]⟩
abbrev S128x5 : Shape := ⟨2, ![128, 5]⟩
abbrev S5 : Shape := ⟨1, ![5]⟩
abbrev S256x128 : Shape := ⟨2, ![256, 128]⟩
abbrev S12288x12 : Shape := ⟨2, ![12288, 12]⟩
abbrev S12288x5 : Shape := ⟨2, ![12288, 5]⟩
abbrev S1536x128 : Shape := ⟨2, ![1536, 128]⟩
abbrev S1536x12 : Shape := ⟨2, ![1536, 12]⟩
abbrev S1536x5 : Shape := ⟨2, ![1536, 5]⟩
abbrev S1x128 : Shape := ⟨2, ![1, 128]⟩
abbrev S1x12 : Shape := ⟨2, ![1, 12]⟩
abbrev S1x5 : Shape := ⟨2, ![1, 5]⟩
abbrev S256x48x128 : Shape := ⟨3, ![256, 48, 128]⟩
abbrev S256x48x48x5 : Shape := ⟨4, ![256, 48, 48, 5]⟩
abbrev S16x48x128 : Shape := ⟨3, ![16, 48, 128]⟩
abbrev S16x48x48x5 : Shape := ⟨4, ![16, 48, 48, 5]⟩
abbrev S768x128 : Shape := ⟨2, ![768, 128]⟩
abbrev S16x48x1x128 : Shape := ⟨4, ![16, 48, 1, 128]⟩
abbrev S16x1x48x128 : Shape := ⟨4, ![16, 1, 48, 128]⟩
abbrev S16x48x48x128 : Shape := ⟨4, ![16, 48, 48, 128]⟩
abbrev S1x1x1x128 : Shape := ⟨4, ![1, 1, 1, 128]⟩
abbrev S36864x128 : Shape := ⟨2, ![36864, 128]⟩
abbrev S36864x5 : Shape := ⟨2, ![36864, 5]⟩
abbrev S589824x5 : Shape := ⟨2, ![589824, 5]⟩

abbrev nBuf : Space → Nat
  | .hbm => 21
  | .vmem => 23
  | .smem => 0
  | _ => 0

abbrev bufTy : (tb : Table) → Fin (tcTables nBuf tb) → BufTy
  | .hbm, ⟨0, _⟩ => ⟨S12288x128, .f32⟩
  | .hbm, ⟨1, _⟩ => ⟨S256x2, .i32⟩
  | .hbm, ⟨2, _⟩ => ⟨S128x128, .f32⟩
  | .hbm, ⟨3, _⟩ => ⟨S128, .f32⟩
  | .hbm, ⟨4, _⟩ => ⟨S128x12, .f32⟩
  | .hbm, ⟨5, _⟩ => ⟨S12, .f32⟩
  | .hbm, ⟨6, _⟩ => ⟨S128x128, .f32⟩
  | .hbm, ⟨7, _⟩ => ⟨S128, .f32⟩
  | .hbm, ⟨8, _⟩ => ⟨S128x5, .f32⟩
  | .hbm, ⟨9, _⟩ => ⟨S5, .f32⟩
  | .hbm, ⟨10, _⟩ => ⟨S256x128, .f32⟩
  | .hbm, ⟨11, _⟩ => ⟨S128, .f32⟩
  | .hbm, ⟨12, _⟩ => ⟨S128x5, .f32⟩
  | .hbm, ⟨13, _⟩ => ⟨S5, .f32⟩
  | .hbm, ⟨14, _⟩ => ⟨S12288x12, .f32⟩
  | .hbm, ⟨15, _⟩ => ⟨S12288x5, .f32⟩
  | .hbm, ⟨16, _⟩ => ⟨S256x48x128, .f32⟩
  | .hbm, ⟨17, _⟩ => ⟨S128x128, .f32⟩
  | .hbm, ⟨18, _⟩ => ⟨S128x128, .f32⟩
  | .hbm, ⟨19, _⟩ => ⟨S256x48x48x5, .f32⟩
  | .hbm, ⟨20, _⟩ => ⟨S589824x5, .f32⟩
  | .local _ .vmem, ⟨0, _⟩ => ⟨S1536x128, .f32⟩
  | .local _ .vmem, ⟨1, _⟩ => ⟨S1536x128, .f32⟩
  | .local _ .vmem, ⟨2, _⟩ => ⟨S128x128, .f32⟩
  | .local _ .vmem, ⟨3, _⟩ => ⟨S128, .f32⟩
  | .local _ .vmem, ⟨4, _⟩ => ⟨S128x12, .f32⟩
  | .local _ .vmem, ⟨5, _⟩ => ⟨S12, .f32⟩
  | .local _ .vmem, ⟨6, _⟩ => ⟨S128x128, .f32⟩
  | .local _ .vmem, ⟨7, _⟩ => ⟨S128, .f32⟩
  | .local _ .vmem, ⟨8, _⟩ => ⟨S128x5, .f32⟩
  | .local _ .vmem, ⟨9, _⟩ => ⟨S5, .f32⟩
  | .local _ .vmem, ⟨10, _⟩ => ⟨S1536x12, .f32⟩
  | .local _ .vmem, ⟨11, _⟩ => ⟨S1536x12, .f32⟩
  | .local _ .vmem, ⟨12, _⟩ => ⟨S1536x5, .f32⟩
  | .local _ .vmem, ⟨13, _⟩ => ⟨S1536x5, .f32⟩
  | .local _ .vmem, ⟨14, _⟩ => ⟨S16x48x128, .f32⟩
  | .local _ .vmem, ⟨15, _⟩ => ⟨S16x48x128, .f32⟩
  | .local _ .vmem, ⟨16, _⟩ => ⟨S128x128, .f32⟩
  | .local _ .vmem, ⟨17, _⟩ => ⟨S128x128, .f32⟩
  | .local _ .vmem, ⟨18, _⟩ => ⟨S128, .f32⟩
  | .local _ .vmem, ⟨19, _⟩ => ⟨S128x5, .f32⟩
  | .local _ .vmem, ⟨20, _⟩ => ⟨S5, .f32⟩
  | .local _ .vmem, ⟨21, _⟩ => ⟨S16x48x48x5, .f32⟩
  | .local _ .vmem, ⟨22, _⟩ => ⟨S16x48x48x5, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1536x12 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1536x5 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S16x48x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S5 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S16x48x48x5 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S1536x128_S1536x128_0_0 : ∀ a, (![0, 0] : Fin 2 → Nat) a + S1536x128.size a ≤ S1536x128.size a
  h_S1536x128 : 0 < S1536x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1536x128 : S1x128.Broadcasts S1536x128
  inb_S128x12_S128x12_0_0 : ∀ a, (![0, 0] : Fin 2 → Nat) a + S128x12.size a ≤ S128x12.size a
  h_S128x12 : 0 < S128x12.numel
  inb_S12_S12_0 : ∀ a, (![0] : Fin 1 → Nat) a + S12.size a ≤ S12.size a
  h_S12 : 0 < S12.numel
  shapeCasts_S12_S1x12 : S12.ShapeCasts S1x12
  broadcasts_S1x12_S1536x12 : S1x12.Broadcasts S1536x12
  inb_S1536x12_S1536x12_0_0 : ∀ a, (![0, 0] : Fin 2 → Nat) a + S1536x12.size a ≤ S1536x12.size a
  h_S1536x12 : 0 < S1536x12.numel
  inb_S128x5_S128x5_0_0 : ∀ a, (![0, 0] : Fin 2 → Nat) a + S128x5.size a ≤ S128x5.size a
  h_S128x5 : 0 < S128x5.numel
  inb_S5_S5_0 : ∀ a, (![0] : Fin 1 → Nat) a + S5.size a ≤ S5.size a
  h_S5 : 0 < S5.numel
  shapeCasts_S5_S1x5 : S5.ShapeCasts S1x5
  broadcasts_S1x5_S1536x5 : S1x5.Broadcasts S1536x5
  inb_S1536x5_S1536x5_0_0 : ∀ a, (![0, 0] : Fin 2 → Nat) a + S1536x5.size a ≤ S1536x5.size a
  h_S1536x5 : 0 < S1536x5.numel
  shapeCasts_S12288x128_S256x48x128 : S12288x128.ShapeCasts S256x48x128
  slices_S256x128_S128x128_0_0 : S256x128.Slices ![0, 0] S128x128
  slices_S256x128_S128x128_128_0 : S256x128.Slices ![128, 0] S128x128
  inb_S16x48x128_S16x48x128_0_0_0 : ∀ a, (![0, 0, 0] : Fin 3 → Nat) a + S16x48x128.size a ≤ S16x48x128.size a
  h_S16x48x128 : 0 < S16x48x128.numel
  shapeCasts_S16x48x128_S16x48x128 : S16x48x128.ShapeCasts S16x48x128
  shapeCasts_S16x48x128_S768x128 : S16x48x128.ShapeCasts S768x128
  shapeCasts_S128x128_S128x128 : S128x128.ShapeCasts S128x128
  shapeCasts_S768x128_S16x48x128 : S768x128.ShapeCasts S16x48x128
  shapeCasts_S16x48x128_S16x48x1x128 : S16x48x128.ShapeCasts S16x48x1x128
  shapeCasts_S16x48x128_S16x1x48x128 : S16x48x128.ShapeCasts S16x1x48x128
  broadcasts_S16x48x1x128_S16x48x48x128 : S16x48x1x128.Broadcasts S16x48x48x128
  broadcasts_S16x1x48x128_S16x48x48x128 : S16x1x48x128.Broadcasts S16x48x48x128
  shapeCasts_S128_S1x1x1x128 : S128.ShapeCasts S1x1x1x128
  broadcasts_S1x1x1x128_S16x48x48x128 : S1x1x1x128.Broadcasts S16x48x48x128
  shapeCasts_S16x48x48x128_S36864x128 : S16x48x48x128.ShapeCasts S36864x128
  broadcasts_S1x5_S36864x5 : S1x5.Broadcasts S36864x5
  shapeCasts_S36864x5_S16x48x48x5 : S36864x5.ShapeCasts S16x48x48x5
  inb_S16x48x48x5_S16x48x48x5_0_0_0_0 : ∀ a, (![0, 0, 0, 0] : Fin 4 → Nat) a + S16x48x48x5.size a ≤ S16x48x48x5.size a
  h_S16x48x48x5 : 0 < S16x48x48x5.numel
  shapeCasts_S256x48x48x5_S589824x5 : S256x48x48x5.ShapeCasts S589824x5
  dot_S1536x128_S128x128_S1536x128_1_0_0_1_n_n_wf : DotDims.WF S1536x128 S128x128 S1536x128 [1] [0] [0] [1] [] []
  dot_S1536x128_S128x12_S1536x12_1_0_0_1_n_n_wf : DotDims.WF S1536x128 S128x12 S1536x12 [1] [0] [0] [1] [] []
  dot_S1536x128_S128x5_S1536x5_1_0_0_1_n_n_wf : DotDims.WF S1536x128 S128x5 S1536x5 [1] [0] [0] [1] [] []
  dot_S768x128_S128x128_S768x128_1_0_0_1_n_n_wf : DotDims.WF S768x128 S128x128 S768x128 [1] [0] [0] [1] [] []
  dot_S36864x128_S128x5_S36864x5_1_0_0_1_n_n_wf : DotDims.WF S36864x128 S128x5 S36864x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x128.size a ≤ S12288x128.size a
  hwx0_0 : ∀ i : grid0.Coords, EltTy.bits .f32 = 32 ∨ (Rect.block (s := S12288x128) S1536x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x12.size a ≤ S128x12.size a
  hwx0_3 : ∀ i : grid0.Coords, EltTy.bits .f32 = 32 ∨ (Rect.block (s := S128x12) S128x12.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12.size a ≤ S12.size a
  hwx0_4 : ∀ i : grid0.Coords, EltTy.bits .f32 = 32 ∨ (Rect.block (s := S12) S12.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x5.size a ≤ S128x5.size a
  hwx0_7 : ∀ i : grid0.Coords, EltTy.bits .f32 = 32 ∨ (Rect.block (s := S128x5) S128x5.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S5.size a ≤ S5.size a
  hwx0_8 : ∀ i : grid0.Coords, EltTy.bits .f32 = 32 ∨ (Rect.block (s := S5) S5.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1536x12.size a ≤ S12288x12.size a
  hwx0_9 : ∀ i : grid0.Coords, EltTy.bits .f32 = 32 ∨ (Rect.block (s := S12288x12) S1536x12.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1536x5.size a ≤ S12288x5.size a
  hwx0_10 : ∀ i : grid0.Coords, EltTy.bits .f32 = 32 ∨ (Rect.block (s := S12288x5) S1536x5.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x48x128.size a ≤ S256x48x128.size a
  hwx1_0 : ∀ i : grid1.Coords, EltTy.bits .f32 = 32 ∨ (Rect.block (s := S256x48x128) S16x48x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x5.size a ≤ S128x5.size a
  hwx1_4 : ∀ i : grid1.Coords, EltTy.bits .f32 = 32 ∨ (Rect.block (s := S128x5) S128x5.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S5.size a ≤ S5.size a
  hwx1_5 : ∀ i : grid1.Coords, EltTy.bits .f32 = 32 ∨ (Rect.block (s := S5) S5.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S16x48x48x5.size a ≤ S256x48x48x5.size a
  hwx1_6 : ∀ i : grid1.Coords, EltTy.bits .f32 = 32 ∨ (Rect.block (s := S256x48x48x5) S16x48x48x5.size (cc1_transform_6 i) (hinb1_6 i)).WholeWords (EltTy.packing .f32)

variable [Facts₀]

def dot_S1536x128_S128x128_S1536x128_1_0_0_1_n_n : DotDims S1536x128 S128x128 S1536x128 where
  lhsContracting := [1]
  rhsContracting := [0]
  lhsNonContracting := [0]
  rhsNonContracting := [1]
  lhsBatch := []
  rhsBatch := []
  wf := dot_S1536x128_S128x128_S1536x128_1_0_0_1_n_n_wf
def dot_S1536x128_S128x12_S1536x12_1_0_0_1_n_n : DotDims S1536x128 S128x12 S1536x12 where
  lhsContracting := [1]
  rhsContracting := [0]
  lhsNonContracting := [0]
  rhsNonContracting := [1]
  lhsBatch := []
  rhsBatch := []
  wf := dot_S1536x128_S128x12_S1536x12_1_0_0_1_n_n_wf
def dot_S1536x128_S128x5_S1536x5_1_0_0_1_n_n : DotDims S1536x128 S128x5 S1536x5 where
  lhsContracting := [1]
  rhsContracting := [0]
  lhsNonContracting := [0]
  rhsNonContracting := [1]
  lhsBatch := []
  rhsBatch := []
  wf := dot_S1536x128_S128x5_S1536x5_1_0_0_1_n_n_wf
def dot_S768x128_S128x128_S768x128_1_0_0_1_n_n : DotDims S768x128 S128x128 S768x128 where
  lhsContracting := [1]
  rhsContracting := [0]
  lhsNonContracting := [0]
  rhsNonContracting := [1]
  lhsBatch := []
  rhsBatch := []
  wf := dot_S768x128_S128x128_S768x128_1_0_0_1_n_n_wf
def dot_S36864x128_S128x5_S36864x5_1_0_0_1_n_n : DotDims S36864x128 S128x5 S36864x5 where
  lhsContracting := [1]
  rhsContracting := [0]
  lhsNonContracting := [0]
  rhsNonContracting := [1]
  lhsBatch := []
  rhsBatch := []
  wf := dot_S36864x128_S128x5_S36864x5_1_0_0_1_n_n_wf

abbrev win0_0 : Pipeline.Window sig grid0 :=
  Pipeline.Window.ofSpec (Memref.whole main_arg0) S1536x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S12.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x5.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S5.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S1536x12.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S1536x5.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v1) S16x48x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S5.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S16x48x48x5.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S12288x128 : Shape := ⟨2, ![12288, 128]⟩
abbrev S256x2 : Shape := ⟨2, ![256, 2]⟩
abbrev S128x128 : Shape := ⟨2, ![128, 128]⟩
abbrev S128 : Shape := ⟨1, ![128]⟩
abbrev S128x12 : Shape := ⟨2, ![128, 12]⟩
abbrev S12 : Shape := ⟨1, ![12]⟩
abbrev S128x5 : Shape := ⟨2, ![128, 5]⟩
abbrev S5 : Shape := ⟨1, ![5]⟩
abbrev S256x128 : Shape := ⟨2, ![256, 128]⟩
abbrev S1x128 : Shape := ⟨2, ![1, 128]⟩
abbrev S_ : Shape := ⟨0, ![]⟩
abbrev S12288x12 : Shape := ⟨2, ![12288, 12]⟩
abbrev S1x12 : Shape := ⟨2, ![1, 12]⟩
abbrev S12288x5 : Shape := ⟨2, ![12288, 5]⟩
abbrev S1x5 : Shape := ⟨2, ![1, 5]⟩
abbrev S256x48x128 : Shape := ⟨3, ![256, 48, 128]⟩
abbrev S256x48x1x128 : Shape := ⟨4, ![256, 48, 1, 128]⟩
abbrev S256x48x48x128 : Shape := ⟨4, ![256, 48, 48, 128]⟩
abbrev S256x1x48x128 : Shape := ⟨4, ![256, 1, 48, 128]⟩
abbrev S256x48x48x256 : Shape := ⟨4, ![256, 48, 48, 256]⟩
abbrev S1x1x1x128 : Shape := ⟨4, ![1, 1, 1, 128]⟩
abbrev S256x48x48x5 : Shape := ⟨4, ![256, 48, 48, 5]⟩
abbrev S1x1x1x5 : Shape := ⟨4, ![1, 1, 1, 5]⟩
abbrev S589824x5 : Shape := ⟨2, ![589824, 5]⟩

abbrev nBuf : Space → Nat
  | .hbm => 54
  | .vmem => 0
  | .smem => 0
  | _ => 0

abbrev bufTy : (tb : Table) → Fin (tcTables nBuf tb) → BufTy
  | .hbm, ⟨0, _⟩ => ⟨S12288x128, .f32⟩
  | .hbm, ⟨1, _⟩ => ⟨S256x2, .i32⟩
  | .hbm, ⟨2, _⟩ => ⟨S128x128, .f32⟩
  | .hbm, ⟨3, _⟩ => ⟨S128, .f32⟩
  | .hbm, ⟨4, _⟩ => ⟨S128x12, .f32⟩
  | .hbm, ⟨5, _⟩ => ⟨S12, .f32⟩
  | .hbm, ⟨6, _⟩ => ⟨S128x128, .f32⟩
  | .hbm, ⟨7, _⟩ => ⟨S128, .f32⟩
  | .hbm, ⟨8, _⟩ => ⟨S128x5, .f32⟩
  | .hbm, ⟨9, _⟩ => ⟨S5, .f32⟩
  | .hbm, ⟨10, _⟩ => ⟨S256x128, .f32⟩
  | .hbm, ⟨11, _⟩ => ⟨S128, .f32⟩
  | .hbm, ⟨12, _⟩ => ⟨S128x5, .f32⟩
  | .hbm, ⟨13, _⟩ => ⟨S5, .f32⟩
  | .hbm, ⟨14, _⟩ => ⟨S12288x128, .f32⟩
  | .hbm, ⟨15, _⟩ => ⟨S1x128, .f32⟩
  | .hbm, ⟨16, _⟩ => ⟨S12288x128, .f32⟩
  | .hbm, ⟨17, _⟩ => ⟨S12288x128, .f32⟩
  | .hbm, ⟨18, _⟩ => ⟨S_, .f32⟩
  | .hbm, ⟨19, _⟩ => ⟨S12288x128, .f32⟩
  | .hbm, ⟨20, _⟩ => ⟨S12288x128, .f32⟩
  | .hbm, ⟨21, _⟩ => ⟨S12288x12, .f32⟩
  | .hbm, ⟨22, _⟩ => ⟨S1x12, .f32⟩
  | .hbm, ⟨23, _⟩ => ⟨S12288x12, .f32⟩
  | .hbm, ⟨24, _⟩ => ⟨S12288x12, .f32⟩
  | .hbm, ⟨25, _⟩ => ⟨S12288x128, .f32⟩
  | .hbm, ⟨26, _⟩ => ⟨S1x128, .f32⟩
  | .hbm, ⟨27, _⟩ => ⟨S12288x128, .f32⟩
  | .hbm, ⟨28, _⟩ => ⟨S12288x128, .f32⟩
  | .hbm, ⟨29, _⟩ => ⟨S_, .f32⟩
  | .hbm, ⟨30, _⟩ => ⟨S12288x128, .f32⟩
  | .hbm, ⟨31, _⟩ => ⟨S12288x128, .f32⟩
  | .hbm, ⟨32, _⟩ => ⟨S12288x5, .f32⟩
  | .hbm, ⟨33, _⟩ => ⟨S1x5, .f32⟩
  | .hbm, ⟨34, _⟩ => ⟨S12288x5, .f32⟩
  | .hbm, ⟨35, _⟩ => ⟨S12288x5, .f32⟩
  | .hbm, ⟨36, _⟩ => ⟨S256x48x128, .f32⟩
  | .hbm, ⟨37, _⟩ => ⟨S256x48x1x128, .f32⟩
  | .hbm, ⟨38, _⟩ => ⟨S256x48x48x128, .f32⟩
  | .hbm, ⟨39, _⟩ => ⟨S256x1x48x128, .f32⟩
  | .hbm, ⟨40, _⟩ => ⟨S256x48x48x128, .f32⟩
  | .hbm, ⟨41, _⟩ => ⟨S256x48x48x256, .f32⟩
  | .hbm, ⟨42, _⟩ => ⟨S256x48x48x128, .f32⟩
  | .hbm, ⟨43, _⟩ => ⟨S1x1x1x128, .f32⟩
  | .hbm, ⟨44, _⟩ => ⟨S256x48x48x128, .f32⟩
  | .hbm, ⟨45, _⟩ => ⟨S256x48x48x128, .f32⟩
  | .hbm, ⟨46, _⟩ => ⟨S_, .f32⟩
  | .hbm, ⟨47, _⟩ => ⟨S256x48x48x128, .f32⟩
  | .hbm, ⟨48, _⟩ => ⟨S256x48x48x128, .f32⟩
  | .hbm, ⟨49, _⟩ => ⟨S256x48x48x5, .f32⟩
  | .hbm, ⟨50, _⟩ => ⟨S1x1x1x5, .f32⟩
  | .hbm, ⟨51, _⟩ => ⟨S256x48x48x5, .f32⟩
  | .hbm, ⟨52, _⟩ => ⟨S256x48x48x5, .f32⟩
  | .hbm, ⟨53, _⟩ => ⟨S589824x5, .f32⟩
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_cst : Ref sig .tc := ⟨.hbm, 29, rfl⟩
abbrev main_call1_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call2_cst : Ref sig .tc := ⟨.hbm, 46, rfl⟩
abbrev main_call2_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  bcast_S_S12288x128 : S_.BroadcastsInDim S12288x128 (![] : Fin 0 → Fin S12288x128.rank)
  bcast_S12_S1x12_1 : S12.BroadcastsInDim S1x12 (![1] : Fin 1 → Fin S1x12.rank)
  bcast_S1x12_S12288x12_0_1 : S1x12.BroadcastsInDim S12288x12 (![0, 1] : Fin 2 → Fin S12288x12.rank)
  bcast_S5_S1x5_1 : S5.BroadcastsInDim S1x5 (![1] : Fin 1 → Fin S1x5.rank)
  bcast_S1x5_S12288x5_0_1 : S1x5.BroadcastsInDim S12288x5 (![0, 1] : Fin 2 → Fin S12288x5.rank)
  shapeCasts_S12288x128_S256x48x128 : S12288x128.ShapeCasts S256x48x128
  bcast_S256x48x128_S256x48x1x128_0_1_3 : S256x48x128.BroadcastsInDim S256x48x1x128 (![0, 1, 3] : Fin 3 → Fin S256x48x1x128.rank)
  bcast_S256x48x1x128_S256x48x48x128_0_1_2_3 : S256x48x1x128.BroadcastsInDim S256x48x48x128 (![0, 1, 2, 3] : Fin 4 → Fin S256x48x48x128.rank)
  bcast_S256x48x128_S256x1x48x128_0_2_3 : S256x48x128.BroadcastsInDim S256x1x48x128 (![0, 2, 3] : Fin 3 → Fin S256x1x48x128.rank)
  bcast_S256x1x48x128_S256x48x48x128_0_1_2_3 : S256x1x48x128.BroadcastsInDim S256x48x48x128 (![0, 1, 2, 3] : Fin 4 → Fin S256x48x48x128.rank)
  concatenates_S256x48x48x128_S256x48x48x128_S256x48x48x256_d3 : Shape.Concatenates [S256x48x48x128, S256x48x48x128] S256x48x48x256 3
  bcast_S128_S1x1x1x128_3 : S128.BroadcastsInDim S1x1x1x128 (![3] : Fin 1 → Fin S1x1x1x128.rank)
  bcast_S1x1x1x128_S256x48x48x128_0_1_2_3 : S1x1x1x128.BroadcastsInDim S256x48x48x128 (![0, 1, 2, 3] : Fin 4 → Fin S256x48x48x128.rank)
  bcast_S_S256x48x48x128 : S_.BroadcastsInDim S256x48x48x128 (![] : Fin 0 → Fin S256x48x48x128.rank)
  bcast_S5_S1x1x1x5_3 : S5.BroadcastsInDim S1x1x1x5 (![3] : Fin 1 → Fin S1x1x1x5.rank)
  bcast_S1x1x1x5_S256x48x48x5_0_1_2_3 : S1x1x1x5.BroadcastsInDim S256x48x48x5 (![0, 1, 2, 3] : Fin 4 → Fin S256x48x48x5.rank)
  shapeCasts_S256x48x48x5_S589824x5 : S256x48x48x5.ShapeCasts S589824x5
  dot_S12288x128_S128x128_S12288x128_1_0_0_1_n_n_wf : DotDims.WF S12288x128 S128x128 S12288x128 [1] [0] [0] [1] [] []
  dot_S12288x128_S128x12_S12288x12_1_0_0_1_n_n_wf : DotDims.WF S12288x128 S128x12 S12288x12 [1] [0] [0] [1] [] []
  dot_S12288x128_S128x5_S12288x5_1_0_0_1_n_n_wf : DotDims.WF S12288x128 S128x5 S12288x5 [1] [0] [0] [1] [] []
  dot_S256x48x48x256_S256x128_S256x48x48x128_3_0_012_1_n_n_wf : DotDims.WF S256x48x48x256 S256x128 S256x48x48x128 [3] [0] [0, 1, 2] [1] [] []
  dot_S256x48x48x128_S128x5_S256x48x48x5_3_0_012_1_n_n_wf : DotDims.WF S256x48x48x128 S128x5 S256x48x48x5 [3] [0] [0, 1, 2] [1] [] []

variable [Facts₀]

def dot_S12288x128_S128x128_S12288x128_1_0_0_1_n_n : DotDims S12288x128 S128x128 S12288x128 where
  lhsContracting := [1]
  rhsContracting := [0]
  lhsNonContracting := [0]
  rhsNonContracting := [1]
  lhsBatch := []
  rhsBatch := []
  wf := dot_S12288x128_S128x128_S12288x128_1_0_0_1_n_n_wf
def dot_S12288x128_S128x12_S12288x12_1_0_0_1_n_n : DotDims S12288x128 S128x12 S12288x12 where
  lhsContracting := [1]
  rhsContracting := [0]
  lhsNonContracting := [0]
  rhsNonContracting := [1]
  lhsBatch := []
  rhsBatch := []
  wf := dot_S12288x128_S128x12_S12288x12_1_0_0_1_n_n_wf
def dot_S12288x128_S128x5_S12288x5_1_0_0_1_n_n : DotDims S12288x128 S128x5 S12288x5 where
  lhsContracting := [1]
  rhsContracting := [0]
  lhsNonContracting := [0]
  rhsNonContracting := [1]
  lhsBatch := []
  rhsBatch := []
  wf := dot_S12288x128_S128x5_S12288x5_1_0_0_1_n_n_wf
def dot_S256x48x48x256_S256x128_S256x48x48x128_3_0_012_1_n_n : DotDims S256x48x48x256 S256x128 S256x48x48x128 where
  lhsContracting := [3]
  rhsContracting := [0]
  lhsNonContracting := [0, 1, 2]
  rhsNonContracting := [1]
  lhsBatch := []
  rhsBatch := []
  wf := dot_S256x48x48x256_S256x128_S256x48x48x128_3_0_012_1_n_n_wf
def dot_S256x48x48x128_S128x5_S256x48x48x5_3_0_012_1_n_n : DotDims S256x48x48x128 S128x5 S256x48x48x5 where
  lhsContracting := [3]
  rhsContracting := [0]
  lhsNonContracting := [0, 1, 2]
  rhsNonContracting := [1]
  lhsBatch := []
  rhsBatch := []
  wf := dot_S256x48x48x128_S128x5_S256x48x48x5_3_0_012_1_n_n_wf

class Facts : Prop extends Facts₀ where

variable [Facts]
-- ==== Proof.Spec.lean ====
/-
  What the three results are, index by index, as functions of the argument arrays over the extended reals.

  Two two-layer perceptron heads over the rows of `x` (N rows of 128 features):
    head x W1 b1 W2 b2 [r, q] = (Σ_k max (Σ_h x[r,h]·W1[h,k] + b1[k]) 0 · W2[k,q]) + b2[q],
  one with 12 outputs and one with 5; each row's result depends on that row of `x` only, so the head of a block of
  rows is that block of the head.

  The pairwise head over the atoms of one molecule (B molecules of 48 atoms of 128 features): the hidden unit p of the
  pair (l, m) of molecule b is
    max ((Σ_h xm[b,l,h]·Wt[h,p] + Σ_h xm[b,m,h]·Wb[h,p]) + b1[p]) 0,
  `Wt` and `Wb` the upper and lower 128 rows of the 256-row first-layer weight, and the result is
    pair xm Wt Wb b1 W2 b2 [b,l,m,q] = (Σ_p hidden[b,l,m,p]·W2[p,q]) + b2[q].
  Each molecule's result depends on that molecule's atoms only.

  A contraction over the 256 features of the concatenation `[u; v]` against the 256 rows of a weight is the sum of the
  two contractions over 128 (`sum_two_halves`): additions only, so it holds on the extended reals with no finiteness.
-/
import Idealize.ShloMosaic.PureOps.Ideal
import Idealize.ShloMosaic.Lib.ValueIdx

noncomputable section

open scoped BigOperators

namespace Cert.Spec

open Idealize.ShloMosaic Idealize.ShloMosaic.ValueIdx

/-- One hidden unit of a perceptron head: row `r` of `x` against column `k` of `W1`, plus the bias, rectified at the
    value of the word of +0.0. -/
def hidden {N : Nat} (x : FVec Ideal ⟨2, ![N, 128]⟩ .f32) (W1 : FVec Ideal ⟨2, ![128, 128]⟩ .f32)
    (b1 : FVec Ideal ⟨1, ![128]⟩ .f32) (r : Fin N) (k : Fin 128) : EReal :=
  max ((∑ h : Fin 128, x (ix2 r h) * W1 (ix2 h k)) + b1 (ix1 k)) (Ideal.ofBits .f32 0x00000000#32)

/-- A perceptron head: the hidden layer against `W2`, plus the output bias. -/
def head {N K : Nat} (x : FVec Ideal ⟨2, ![N, 128]⟩ .f32) (W1 : FVec Ideal ⟨2, ![128, 128]⟩ .f32)
    (b1 : FVec Ideal ⟨1, ![128]⟩ .f32) (W2 : FVec Ideal ⟨2, ![128, K]⟩ .f32) (b2 : FVec Ideal ⟨1, ![K]⟩ .f32) :
    FVec Ideal ⟨2, ![N, K]⟩ .f32 :=
  fun i => (∑ k : Fin 128, hidden x W1 b1 (i 0) k * W2 (ix2 k (i 1))) + b2 (ix1 (i 1))

theorem head_apply {N K : Nat} (x : FVec Ideal ⟨2, ![N, 128]⟩ .f32) (W1 : FVec Ideal ⟨2, ![128, 128]⟩ .f32)
    (b1 : FVec Ideal ⟨1, ![128]⟩ .f32) (W2 : FVec Ideal ⟨2, ![128, K]⟩ .f32) (b2 : FVec Ideal ⟨1, ![K]⟩ .f32)
    (r : Fin N) (q : Fin K) :
    head x W1 b1 W2 b2 (ix2 r q) = (∑ k : Fin 128, hidden x W1 b1 r k * W2 (ix2 k q)) + b2 (ix1 q) := rfl

/-- A head reads row `r` of `x` only: if two arrays agree on a row (at any two row positions), their heads agree there. -/
theorem head_congr_row {N N' K : Nat} (x : FVec Ideal ⟨2, ![N, 128]⟩ .f32) (x' : FVec Ideal ⟨2, ![N', 128]⟩ .f32)
    (W1 : FVec Ideal ⟨2, ![128, 128]⟩ .f32) (b1 : FVec Ideal ⟨1, ![128]⟩ .f32) (W2 : FVec Ideal ⟨2, ![128, K]⟩ .f32)
    (b2 : FVec Ideal ⟨1, ![K]⟩ .f32) (r : Fin N) (r' : Fin N') (q : Fin K) (hx : ∀ h : Fin 128, x (ix2 r h) = x' (ix2 r' h)) :
    head x W1 b1 W2 b2 (ix2 r q) = head x' W1 b1 W2 b2 (ix2 r' q) := by
  rw [head_apply, head_apply]
  unfold hidden
  simp only [hx]

/-- One hidden unit of the pairwise head: atom `l` against the upper weight, atom `m` against the lower, the bias,
    rectified. -/
def pairHidden {B : Nat} (xm : FVec Ideal ⟨3, ![B, 48, 128]⟩ .f32) (Wt Wb : FVec Ideal ⟨2, ![128, 128]⟩ .f32)
    (b1 : FVec Ideal ⟨1, ![128]⟩ .f32) (b : Fin B) (l m : Fin 48) (p : Fin 128) : EReal :=
  max (((∑ h : Fin 128, xm (ix3 b l h) * Wt (ix2 h p)) + (∑ h : Fin 128, xm (ix3 b m h) * Wb (ix2 h p))) + b1 (ix1 p))
    (Ideal.ofBits .f32 0x00000000#32)

/-- The pairwise head: the hidden layer of every ordered pair of atoms of a molecule against `W2`, plus the bias. -/
def pair {B : Nat} (xm : FVec Ideal ⟨3, ![B, 48, 128]⟩ .f32) (Wt Wb : FVec Ideal ⟨2, ![128, 128]⟩ .f32)
    (b1 : FVec Ideal ⟨1, ![128]⟩ .f32) (W2 : FVec Ideal ⟨2, ![128, 5]⟩ .f32) (b2 : FVec Ideal ⟨1, ![5]⟩ .f32) :
    FVec Ideal ⟨4, ![B, 48, 48, 5]⟩ .f32 :=
  fun i => (∑ p : Fin 128, pairHidden xm Wt Wb b1 (i 0) (i 1) (i 2) p * W2 (ix2 p (i 3))) + b2 (ix1 (i 3))

theorem pair_apply {B : Nat} (xm : FVec Ideal ⟨3, ![B, 48, 128]⟩ .f32) (Wt Wb : FVec Ideal ⟨2, ![128, 128]⟩ .f32)
    (b1 : FVec Ideal ⟨1, ![128]⟩ .f32) (W2 : FVec Ideal ⟨2, ![128, 5]⟩ .f32) (b2 : FVec Ideal ⟨1, ![5]⟩ .f32)
    (b : Fin B) (l m : Fin 48) (q : Fin 5) :
    pair xm Wt Wb b1 W2 b2 (ix4 b l m q) = (∑ p : Fin 128, pairHidden xm Wt Wb b1 b l m p * W2 (ix2 p q)) + b2 (ix1 q) := rfl

/-- The pairwise head reads molecule `b` of `xm` only. -/
theorem pair_congr_mol {B B' : Nat} (xm : FVec Ideal ⟨3, ![B, 48, 128]⟩ .f32) (xm' : FVec Ideal ⟨3, ![B', 48, 128]⟩ .f32)
    (Wt Wb : FVec Ideal ⟨2, ![128, 128]⟩ .f32) (b1 : FVec Ideal ⟨1, ![128]⟩ .f32) (W2 : FVec Ideal ⟨2, ![128, 5]⟩ .f32)
    (b2 : FVec Ideal ⟨1, ![5]⟩ .f32) (b : Fin B) (b' : Fin B') (l m : Fin 48) (q : Fin 5)
    (hx : ∀ (a : Fin 48) (h : Fin 128), xm (ix3 b a h) = xm' (ix3 b' a h)) :
    pair xm Wt Wb b1 W2 b2 (ix4 b l m q) = pair xm' Wt Wb b1 W2 b2 (ix4 b' l m q) := by
  rw [pair_apply, pair_apply]
  unfold pairHidden
  simp only [hx]

/-- A sum over 256 terms is the sum of its first 128 and its last 128: additions only, so on the extended reals too. -/
theorem sum_two_halves (f : Fin 256 → EReal) :
    (∑ k : Fin 256, f k) = (∑ h : Fin 128, f ⟨h.val, by omega⟩) + (∑ h : Fin 128, f ⟨128 + h.val, by omega⟩) :=
  Fin.sum_univ_add (M := EReal) (a := 128) (b := 128) f

end Cert.Spec

end
-- ==== Proof.KernelFold.lean ====
/-
  The boundary contents of the kernel program's run, read back.

  The run's buffer contents pass through four boundaries: the first region's exit (its two output arrays at what its
  write-backs leave, everything else as launched), the host stretch between the regions (the feature array reshaped
  to molecules by atoms by features; the upper and the lower 128 rows of the 256-row weight sliced out), the second
  region's exit, and the last host operation (the second region's output array reshaped to two axes).
  So, at the end: the first two results ARE the first region's two output arrays (no later item writes them); the third
  result is the reshape of the second region's output array; and the second region's input arrays at its entry are the
  reshape and the two slices of the launch memory's arguments, its bias and second-layer arrays the arguments
  themselves (the first region writes none of them).
-/
import proofs.«125245_j27900107555247_1_alg».proof.Proof.Gen.KernelIdeal.Frame
import Idealize.ShloMosaic.Lib.StableHlo.Run

set_option maxRecDepth 16384

noncomputable section

namespace Cert.KernelIdeal.Fold

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-! ## The results -/

/-- The first result ends as the first region's output window 9 leaves its array: neither host stretch and not the
    second region writes it. -/
theorem W4_main_v0_0 (c : Dev nD) : W4 m ρ c (Proc.devRef .tc main_v0_0) = (dat0 (V0 m ρ) c).arrAt 9 cfg0.N :=
  calc W4 m ρ c (Proc.devRef .tc main_v0_0)
    _ = W3 m ρ c (Proc.devRef .tc main_v0_0) := StableHlo.after_of_forall_not_mem (b := Proc.devRef .tc main_v0_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v0_0) := W3_of_ne m ρ c main_v0_0 (by decide)
    _ = W1 m ρ c (Proc.devRef .tc main_v0_0) := StableHlo.after_of_forall_not_mem (b := Proc.devRef .tc main_v0_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V0 m ρ) c).arrAt 9 cfg0.N := W1_arr m ρ c 9

/-- The second result ends as the first region's output window 10 leaves its array. -/
theorem W4_main_v0_1 (c : Dev nD) : W4 m ρ c (Proc.devRef .tc main_v0_1) = (dat0 (V0 m ρ) c).arrAt 10 cfg0.N :=
  calc W4 m ρ c (Proc.devRef .tc main_v0_1)
    _ = W3 m ρ c (Proc.devRef .tc main_v0_1) := StableHlo.after_of_forall_not_mem (b := Proc.devRef .tc main_v0_1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v0_1) := W3_of_ne m ρ c main_v0_1 (by decide)
    _ = W1 m ρ c (Proc.devRef .tc main_v0_1) := StableHlo.after_of_forall_not_mem (b := Proc.devRef .tc main_v0_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V0 m ρ) c).arrAt 10 cfg0.N := W1_arr m ρ c 10

/-- The third result is the last host operation's reshape of the second region's output array. -/
theorem W4_main_v5 (c : Dev nD) :
    W4 m ρ c (Proc.devRef .tc main_v5)
      = shapeCast S589824x5 ((dat1 (V2 m ρ) c).arrAt 6 cfg1.N) shapeCasts_S256x48x48x5_S589824x5 := by
  have h : W4 m ρ c (Proc.devRef .tc main_v5)
      = shapeCast S589824x5 (W3 m ρ c (Proc.devRef .tc main_v4)) shapeCasts_S256x48x48x5_S589824x5 := by
    show StableHlo.after hostOps2 (W3 m ρ c) (Proc.devRef .tc main_v5) = _
    after_results
    rfl
  rw [h, show W3 m ρ c (Proc.devRef .tc main_v4) = (dat1 (V2 m ρ) c).arrAt 6 cfg1.N from W3_arr m ρ c 6]

/-! ## The first region's exit, at the arguments the second region's entry reads -/

/-- The feature array is an input window of the first region: it leaves it as launched. -/
theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))

theorem W1_main_arg10 (c : Dev nD) : W1 m ρ c (Proc.devRef .tc main_arg10) = m ((c : Thread nD τ).loc main_arg10) :=
  W1_of_ne m ρ c main_arg10 (by decide)
theorem W1_main_arg11 (c : Dev nD) : W1 m ρ c (Proc.devRef .tc main_arg11) = m ((c : Thread nD τ).loc main_arg11) :=
  W1_of_ne m ρ c main_arg11 (by decide)
theorem W1_main_arg12 (c : Dev nD) : W1 m ρ c (Proc.devRef .tc main_arg12) = m ((c : Thread nD τ).loc main_arg12) :=
  W1_of_ne m ρ c main_arg12 (by decide)
theorem W1_main_arg13 (c : Dev nD) : W1 m ρ c (Proc.devRef .tc main_arg13) = m ((c : Thread nD τ).loc main_arg13) :=
  W1_of_ne m ρ c main_arg13 (by decide)

/-! ## The second region's entry contents at its six input arrays -/

/-- Molecules by atoms by features: the reshape of the launched feature array. -/
theorem V2_main_v1 (c : Dev nD) :
    V2 m ρ c main_v1 = shapeCast S256x48x128 (m ((c : Thread nD τ).loc main_arg0)) shapeCasts_S12288x128_S256x48x128 := by
  have h : V2 m ρ c main_v1
      = shapeCast S256x48x128 (W1 m ρ c (Proc.devRef .tc main_arg0)) shapeCasts_S12288x128_S256x48x128 := by
    show StableHlo.after hostOps1 (W1 m ρ c) (Proc.devRef .tc main_v1) = _
    after_results
    rfl
  rw [h, W1_main_arg0]

/-- The upper 128 rows of the launched 256-row weight. -/
theorem V2_main_v2 (c : Dev nD) :
    V2 m ρ c main_v2
      = extractStridedSlice S128x128 ![0, 0] (m ((c : Thread nD τ).loc main_arg10)) slices_S256x128_S128x128_0_0 := by
  have h : V2 m ρ c main_v2
      = extractStridedSlice S128x128 ![0, 0] (W1 m ρ c (Proc.devRef .tc main_arg10)) slices_S256x128_S128x128_0_0 := by
    show StableHlo.after hostOps1 (W1 m ρ c) (Proc.devRef .tc main_v2) = _
    after_results
  rw [h, W1_main_arg10]

/-- The lower 128 rows of the launched 256-row weight. -/
theorem V2_main_v3 (c : Dev nD) :
    V2 m ρ c main_v3
      = extractStridedSlice S128x128 ![128, 0] (m ((c : Thread nD τ).loc main_arg10)) slices_S256x128_S128x128_128_0 := by
  have h : V2 m ρ c main_v3
      = extractStridedSlice S128x128 ![128, 0] (W1 m ρ c (Proc.devRef .tc main_arg10)) slices_S256x128_S128x128_128_0 := by
    show StableHlo.after hostOps1 (W1 m ρ c) (Proc.devRef .tc main_v3) = _
    after_results
  rw [h, W1_main_arg10]

theorem V2_main_arg11 (c : Dev nD) : V2 m ρ c main_arg11 = m ((c : Thread nD τ).loc main_arg11) :=
  (show StableHlo.after hostOps1 (W1 m ρ c) (Proc.devRef .tc main_arg11) = W1 m ρ c (Proc.devRef .tc main_arg11) from
    StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg11 m ρ c)
theorem V2_main_arg12 (c : Dev nD) : V2 m ρ c main_arg12 = m ((c : Thread nD τ).loc main_arg12) :=
  (show StableHlo.after hostOps1 (W1 m ρ c) (Proc.devRef .tc main_arg12) = W1 m ρ c (Proc.devRef .tc main_arg12) from
    StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg12 m ρ c)
theorem V2_main_arg13 (c : Dev nD) : V2 m ρ c main_arg13 = m ((c : Thread nD τ).loc main_arg13) :=
  (show StableHlo.after hostOps1 (W1 m ρ c) (Proc.devRef .tc main_arg13) = W1 m ρ c (Proc.devRef .tc main_arg13) from
    StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg13 m ρ c)

end Cert.KernelIdeal.Fold

end
-- ==== Proof.HeadBlock.lean ====
/- The two perceptron heads of the first kernel region, on one block: the body's stored values read at an index. -/
import proofs.«125245_j27900107555247_1_alg».proof.Proof.Gen.KernelIdeal.Frame
import proofs.«125245_j27900107555247_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Heads

open Idealize.ShloMosaic Idealize.ShloMosaic.TcCoe Idealize.SL.Sem Idealize.ShloMosaic.ValueIdx
open Cert.KernelIdeal Cert.KernelIdeal.Gen

/-! ## The three contractions at an index

Each is a product of a [1536,128] left operand with a [128,K] right operand over the one shared axis of 128: at
(r, q) it is the sum over h of left[r,h] * right[h,q]. -/

theorem lhs_hid_0 (i : S1536x128.Idx) (q : dot_S1536x128_S128x128_S1536x128_1_0_0_1_n_n.contr.Idx) :
    (dot_S1536x128_S128x128_S1536x128_1_0_0_1_n_n.lhsIdx i q 0).val = (i 0).val := by
  unfold DotDims.lhsIdx
  rw [dif_neg (show ¬(0 : Fin S1536x128.rank) ∈ dot_S1536x128_S128x128_S1536x128_1_0_0_1_n_n.lhsBatch by decide), dif_pos (show (0 : Fin S1536x128.rank) ∈ dot_S1536x128_S128x128_S1536x128_1_0_0_1_n_n.lhsNonContracting by decide)]
  rfl
theorem lhs_hid_1 (i : S1536x128.Idx) (q : dot_S1536x128_S128x128_S1536x128_1_0_0_1_n_n.contr.Idx) :
    (dot_S1536x128_S128x128_S1536x128_1_0_0_1_n_n.lhsIdx i q 1).val = (q ⟨0, by decide⟩).val :=
  dot_S1536x128_S128x128_S1536x128_1_0_0_1_n_n.lhsIdx_val_of_single rfl i q
theorem rhs_hid_0 (i : S1536x128.Idx) (q : dot_S1536x128_S128x128_S1536x128_1_0_0_1_n_n.contr.Idx) :
    (dot_S1536x128_S128x128_S1536x128_1_0_0_1_n_n.rhsIdx i q 0).val = (q ⟨0, by decide⟩).val :=
  dot_S1536x128_S128x128_S1536x128_1_0_0_1_n_n.rhsIdx_val_of_single rfl i q
theorem rhs_hid_1 (i : S1536x128.Idx) (q : dot_S1536x128_S128x128_S1536x128_1_0_0_1_n_n.contr.Idx) :
    (dot_S1536x128_S128x128_S1536x128_1_0_0_1_n_n.rhsIdx i q 1).val = (i 1).val := by
  unfold DotDims.rhsIdx
  rw [dif_neg (show ¬(1 : Fin S128x128.rank) ∈ dot_S1536x128_S128x128_S1536x128_1_0_0_1_n_n.rhsBatch by decide), dif_pos (show (1 : Fin S128x128.rank) ∈ dot_S1536x128_S128x128_S1536x128_1_0_0_1_n_n.rhsNonContracting by decide)]
  rfl

/-- The contraction into the zero accumulator at (r, q). -/
theorem matmul_hid_apply (a : FVec Ideal S1536x128 .bf16) (w : FVec Ideal S128x128 .bf16) (r : Fin 1536) (q : Fin 128) :
    matmul dot_S1536x128_S128x128_S1536x128_1_0_0_1_n_n none a w (constant S1536x128 .f32 0x00000000#32) (ix2 r q)
      = ∑ h : Fin 128, a (ix2 r h) * w (ix2 h q) := by
  show FloatOps.matmul dot_S1536x128_S128x128_S1536x128_1_0_0_1_n_n none a w (constant S1536x128 .f32 0x00000000#32) (ix2 r q) = _
  rw [Ideal.matmul_constant_zero_apply, ← Equiv.sum_comp (contrEquiv1 dot_S1536x128_S128x128_S1536x128_1_0_0_1_n_n 128 rfl rfl).symm]
  refine Finset.sum_congr rfl fun h _ => ?_
  have hk := contrEquiv1_symm_val dot_S1536x128_S128x128_S1536x128_1_0_0_1_n_n 128 rfl rfl h
  have el : dot_S1536x128_S128x128_S1536x128_1_0_0_1_n_n.lhsIdx (ix2 r q) ((contrEquiv1 dot_S1536x128_S128x128_S1536x128_1_0_0_1_n_n 128 rfl rfl).symm h) = ix2 r h := funext fun b => Fin.ext (by
    match b with
    | ⟨0, _⟩ => exact lhs_hid_0 _ _
    | ⟨1, _⟩ => exact (lhs_hid_1 _ _).trans hk)
  have er : dot_S1536x128_S128x128_S1536x128_1_0_0_1_n_n.rhsIdx (ix2 r q) ((contrEquiv1 dot_S1536x128_S128x128_S1536x128_1_0_0_1_n_n 128 rfl rfl).symm h) = ix2 h q := funext fun b => Fin.ext (by
    match b with
    | ⟨0, _⟩ => exact (rhs_hid_0 _ _).trans hk
    | ⟨1, _⟩ => exact rhs_hid_1 _ _)
  rw [el, er]

theorem lhs_sym_0 (i : S1536x12.Idx) (q : dot_S1536x128_S128x12_S1536x12_1_0_0_1_n_n.contr.Idx) :
    (dot_S1536x128_S128x12_S1536x12_1_0_0_1_n_n.lhsIdx i q 0).val = (i 0).val := by
  unfold DotDims.lhsIdx
  rw [dif_neg (show ¬(0 : Fin S1536x128.rank) ∈ dot_S1536x128_S128x12_S1536x12_1_0_0_1_n_n.lhsBatch by decide), dif_pos (show (0 : Fin S1536x128.rank) ∈ dot_S1536x128_S128x12_S1536x12_1_0_0_1_n_n.lhsNonContracting by decide)]
  rfl
theorem lhs_sym_1 (i : S1536x12.Idx) (q : dot_S1536x128_S128x12_S1536x12_1_0_0_1_n_n.contr.Idx) :
    (dot_S1536x128_S128x12_S1536x12_1_0_0_1_n_n.lhsIdx i q 1).val = (q ⟨0, by decide⟩).val :=
  dot_S1536x128_S128x12_S1536x12_1_0_0_1_n_n.lhsIdx_val_of_single rfl i q
theorem rhs_sym_0 (i : S1536x12.Idx) (q : dot_S1536x128_S128x12_S1536x12_1_0_0_1_n_n.contr.Idx) :
    (dot_S1536x128_S128x12_S1536x12_1_0_0_1_n_n.rhsIdx i q 0).val = (q ⟨0, by decide⟩).val :=
  dot_S1536x128_S128x12_S1536x12_1_0_0_1_n_n.rhsIdx_val_of_single rfl i q
theorem rhs_sym_1 (i : S1536x12.Idx) (q : dot_S1536x128_S128x12_S1536x12_1_0_0_1_n_n.contr.Idx) :
    (dot_S1536x128_S128x12_S1536x12_1_0_0_1_n_n.rhsIdx i q 1).val = (i 1).val := by
  unfold DotDims.rhsIdx
  rw [dif_neg (show ¬(1 : Fin S128x12.rank) ∈ dot_S1536x128_S128x12_S1536x12_1_0_0_1_n_n.rhsBatch by decide), dif_pos (show (1 : Fin S128x12.rank) ∈ dot_S1536x128_S128x12_S1536x12_1_0_0_1_n_n.rhsNonContracting by decide)]
  rfl

/-- The contraction into the zero accumulator at (r, q). -/
theorem matmul_sym_apply (a : FVec Ideal S1536x128 .bf16) (w : FVec Ideal S128x12 .bf16) (r : Fin 1536) (q : Fin 12) :
    matmul dot_S1536x128_S128x12_S1536x12_1_0_0_1_n_n none a w (constant S1536x12 .f32 0x00000000#32) (ix2 r q)
      = ∑ h : Fin 128, a (ix2 r h) * w (ix2 h q) := by
  show FloatOps.matmul dot_S1536x128_S128x12_S1536x12_1_0_0_1_n_n none a w (constant S1536x12 .f32 0x00000000#32) (ix2 r q) = _
  rw [Ideal.matmul_constant_zero_apply, ← Equiv.sum_comp (contrEquiv1 dot_S1536x128_S128x12_S1536x12_1_0_0_1_n_n 128 rfl rfl).symm]
  refine Finset.sum_congr rfl fun h _ => ?_
  have hk := contrEquiv1_symm_val dot_S1536x128_S128x12_S1536x12_1_0_0_1_n_n 128 rfl rfl h
  have el : dot_S1536x128_S128x12_S1536x12_1_0_0_1_n_n.lhsIdx (ix2 r q) ((contrEquiv1 dot_S1536x128_S128x12_S1536x12_1_0_0_1_n_n 128 rfl rfl).symm h) = ix2 r h := funext fun b => Fin.ext (by
    match b with
    | ⟨0, _⟩ => exact lhs_sym_0 _ _
    | ⟨1, _⟩ => exact (lhs_sym_1 _ _).trans hk)
  have er : dot_S1536x128_S128x12_S1536x12_1_0_0_1_n_n.rhsIdx (ix2 r q) ((contrEquiv1 dot_S1536x128_S128x12_S1536x12_1_0_0_1_n_n 128 rfl rfl).symm h) = ix2 h q := funext fun b => Fin.ext (by
    match b with
    | ⟨0, _⟩ => exact (rhs_sym_0 _ _).trans hk
    | ⟨1, _⟩ => exact rhs_sym_1 _ _)
  rw [el, er]

theorem lhs_chg_0 (i : S1536x5.Idx) (q : dot_S1536x128_S128x5_S1536x5_1_0_0_1_n_n.contr.Idx) :
    (dot_S1536x128_S128x5_S1536x5_1_0_0_1_n_n.lhsIdx i q 0).val = (i 0).val := by
  unfold DotDims.lhsIdx
  rw [dif_neg (show ¬(0 : Fin S1536x128.rank) ∈ dot_S1536x128_S128x5_S1536x5_1_0_0_1_n_n.lhsBatch by decide), dif_pos (show (0 : Fin S1536x128.rank) ∈ dot_S1536x128_S128x5_S1536x5_1_0_0_1_n_n.lhsNonContracting by decide)]
  rfl
theorem lhs_chg_1 (i : S1536x5.Idx) (q : dot_S1536x128_S128x5_S1536x5_1_0_0_1_n_n.contr.Idx) :
    (dot_S1536x128_S128x5_S1536x5_1_0_0_1_n_n.lhsIdx i q 1).val = (q ⟨0, by decide⟩).val :=
  dot_S1536x128_S128x5_S1536x5_1_0_0_1_n_n.lhsIdx_val_of_single rfl i q
theorem rhs_chg_0 (i : S1536x5.Idx) (q : dot_S1536x128_S128x5_S1536x5_1_0_0_1_n_n.contr.Idx) :
    (dot_S1536x128_S128x5_S1536x5_1_0_0_1_n_n.rhsIdx i q 0).val = (q ⟨0, by decide⟩).val :=
  dot_S1536x128_S128x5_S1536x5_1_0_0_1_n_n.rhsIdx_val_of_single rfl i q
theorem rhs_chg_1 (i : S1536x5.Idx) (q : dot_S1536x128_S128x5_S1536x5_1_0_0_1_n_n.contr.Idx) :
    (dot_S1536x128_S128x5_S1536x5_1_0_0_1_n_n.rhsIdx i q 1).val = (i 1).val := by
  unfold DotDims.rhsIdx
  rw [dif_neg (show ¬(1 : Fin S128x5.rank) ∈ dot_S1536x128_S128x5_S1536x5_1_0_0_1_n_n.rhsBatch by decide), dif_pos (show (1 : Fin S128x5.rank) ∈ dot_S1536x128_S128x5_S1536x5_1_0_0_1_n_n.rhsNonContracting by decide)]
  rfl

/-- The contraction into the zero accumulator at (r, q). -/
theorem matmul_chg_apply (a : FVec Ideal S1536x128 .bf16) (w : FVec Ideal S128x5 .bf16) (r : Fin 1536) (q : Fin 5) :
    matmul dot_S1536x128_S128x5_S1536x5_1_0_0_1_n_n none a w (constant S1536x5 .f32 0x00000000#32) (ix2 r q)
      = ∑ h : Fin 128, a (ix2 r h) * w (ix2 h q) := by
  show FloatOps.matmul dot_S1536x128_S128x5_S1536x5_1_0_0_1_n_n none a w (constant S1536x5 .f32 0x00000000#32) (ix2 r q) = _
  rw [Ideal.matmul_constant_zero_apply, ← Equiv.sum_comp (contrEquiv1 dot_S1536x128_S128x5_S1536x5_1_0_0_1_n_n 128 rfl rfl).symm]
  refine Finset.sum_congr rfl fun h _ => ?_
  have hk := contrEquiv1_symm_val dot_S1536x128_S128x5_S1536x5_1_0_0_1_n_n 128 rfl rfl h
  have el : dot_S1536x128_S128x5_S1536x5_1_0_0_1_n_n.lhsIdx (ix2 r q) ((contrEquiv1 dot_S1536x128_S128x5_S1536x5_1_0_0_1_n_n 128 rfl rfl).symm h) = ix2 r h := funext fun b => Fin.ext (by
    match b with
    | ⟨0, _⟩ => exact lhs_chg_0 _ _
    | ⟨1, _⟩ => exact (lhs_chg_1 _ _).trans hk)
  have er : dot_S1536x128_S128x5_S1536x5_1_0_0_1_n_n.rhsIdx (ix2 r q) ((contrEquiv1 dot_S1536x128_S128x5_S1536x5_1_0_0_1_n_n 128 rfl rfl).symm h) = ix2 h q := funext fun b => Fin.ext (by
    match b with
    | ⟨0, _⟩ => exact (rhs_chg_0 _ _).trans hk
    | ⟨1, _⟩ => exact rhs_chg_1 _ _)
  rw [el, er]

/-! ## The biases: a vector [K] cast to [1,K] and repeated down the 1536 rows reads its entry at the column -/

theorem cast_row_apply {α : Type} {K : Nat} (b : (⟨1, ![K]⟩ : Shape).Idx → α)
    (h1 : (⟨1, ![K]⟩ : Shape).ShapeCasts ⟨2, ![1, K]⟩) (z : Fin 1) (k : Fin K) :
    shapeCast ⟨2, ![1, K]⟩ b h1 (ix2 z k) = b (ix1 k) := by
  refine (shapeCast_addUnit_apply ![K] b h1 (ix2 z k)).trans ?_
  exact congrArg b (funext fun a => by match a with | ⟨0, _⟩ => rfl)

theorem bias128_apply {α : Type} (b : S128.Idx → α) (h1 : S128.ShapeCasts S1x128) (h2 : S1x128.Broadcasts S1536x128)
    (r : Fin 1536) (k : Fin 128) :
    broadcastTo S1536x128 (shapeCast S1x128 b h1) h2 (ix2 r k) = b (ix1 k) := by
  refine (broadcastTo_apply (shapeCast S1x128 b h1) h2 (ix2 r k) (ix2 (0 : Fin 1) k) (fun a => ?_)).trans
    (cast_row_apply b h1 0 k)
  match a with
  | ⟨0, _⟩ => show (0 : Nat) = if (1 : Nat) = 1 then 0 else r.val; rw [if_pos rfl]
  | ⟨1, _⟩ => show k.val = if (128 : Nat) = 1 then 0 else k.val; rw [if_neg (by decide)]

theorem bias12_apply {α : Type} (b : S12.Idx → α) (h1 : S12.ShapeCasts S1x12) (h2 : S1x12.Broadcasts S1536x12)
    (r : Fin 1536) (k : Fin 12) :
    broadcastTo S1536x12 (shapeCast S1x12 b h1) h2 (ix2 r k) = b (ix1 k) := by
  refine (broadcastTo_apply (shapeCast S1x12 b h1) h2 (ix2 r k) (ix2 (0 : Fin 1) k) (fun a => ?_)).trans
    (cast_row_apply b h1 0 k)
  match a with
  | ⟨0, _⟩ => show (0 : Nat) = if (1 : Nat) = 1 then 0 else r.val; rw [if_pos rfl]
  | ⟨1, _⟩ => show k.val = if (12 : Nat) = 1 then 0 else k.val; rw [if_neg (by decide)]

theorem bias5_apply {α : Type} (b : S5.Idx → α) (h1 : S5.ShapeCasts S1x5) (h2 : S1x5.Broadcasts S1536x5)
    (r : Fin 1536) (k : Fin 5) :
    broadcastTo S1536x5 (shapeCast S1x5 b h1) h2 (ix2 r k) = b (ix1 k) := by
  refine (broadcastTo_apply (shapeCast S1x5 b h1) h2 (ix2 r k) (ix2 (0 : Fin 1) k) (fun a => ?_)).trans
    (cast_row_apply b h1 0 k)
  match a with
  | ⟨0, _⟩ => show (0 : Nat) = if (1 : Nat) = 1 then 0 else r.val; rw [if_pos rfl]
  | ⟨1, _⟩ => show k.val = if (5 : Nat) = 1 then 0 else k.val; rw [if_neg (by decide)]

/-! ## The stored values at an index -/

/-- The hidden layer of a block, as the body computes it, at (r, k). -/
theorem hidden_apply (x0 : FVec Ideal S1536x128 .f32) (x1 : FVec Ideal S128x128 .f32) (x2 : FVec Ideal S128 .f32)
    (hb : FTy.bits .bf16 < FTy.bits .f32) (h1 : S128.ShapeCasts S1x128) (h2 : S1x128.Broadcasts S1536x128)
    (r : Fin 1536) (k : Fin 128) :
    maximumf (addf (matmul dot_S1536x128_S128x128_S1536x128_1_0_0_1_n_n none (k0_pay2 (F := Ideal) x0) (truncf .bf16 x1 hb) (constant S1536x128 .f32 0x00000000#32))
        (broadcastTo S1536x128 (shapeCast S1x128 x2 h1) h2))
      (broadcast S1536x128 (FloatOps.ofBits (F := Ideal) .f32 0x00000000#32)) (ix2 r k)
      = Cert.Spec.hidden x0 x1 x2 r k := by
  rw [maximumf_apply, addf_apply, matmul_hid_apply, bias128_apply, broadcast_apply]
  rfl

/-- The 12-output head's stored block at (r, q) is the head of the loaded blocks there. -/
theorem pay3_apply (x0 : Vec Ideal S1536x128 .f32) (x1 : Vec Ideal S128x128 .f32) (x2 : Vec Ideal S128 .f32)
    (x3 : Vec Ideal S128x12 .f32) (x4 : Vec Ideal S12 .f32) (r : Fin 1536) (q : Fin 12) :
    k0_pay3 x0 x1 x2 x3 x4 (ix2 r q) = Cert.Spec.head x0 x1 x2 x3 x4 (ix2 r q) := by
  rw [Cert.Spec.head_apply]
  unfold k0_pay3
  rw [addf_apply, matmul_sym_apply, bias12_apply]
  refine congrArg (· + x4 (ix1 q)) (Finset.sum_congr rfl fun k _ => ?_)
  rw [truncf_apply, truncf_apply, hidden_apply]

/-- The 5-output head's stored block at (r, q) is the head of the loaded blocks there. -/
theorem pay1_apply (x0 : Vec Ideal S1536x128 .f32) (x5 : Vec Ideal S128x128 .f32) (x6 : Vec Ideal S128 .f32)
    (x7 : Vec Ideal S128x5 .f32) (x8 : Vec Ideal S5 .f32) (r : Fin 1536) (q : Fin 5) :
    k0_pay1 (k0_pay4 x0 x5 x6 x7) (k0_pay5 x8) (ix2 r q) = Cert.Spec.head x0 x5 x6 x7 x8 (ix2 r q) := by
  rw [Cert.Spec.head_apply]
  unfold k0_pay1 k0_pay4 k0_pay5
  rw [addf_apply, matmul_chg_apply, bias5_apply]
  refine congrArg (· + x8 (ix1 q)) (Finset.sum_congr rfl fun k _ => ?_)
  rw [truncf_apply, truncf_apply, hidden_apply]

end Cert.KernelIdeal.Heads

end
-- ==== Proof.HeadArrays.lean ====
/- The two perceptron heads of the first kernel region, from blocks to arrays. -/
import proofs.«125245_j27900107555247_1_alg».proof.Proof.HeadBlock
import proofs.«125245_j27900107555247_1_alg».proof.Proof.Gen.KernelIdeal.Frame
import proofs.«125245_j27900107555247_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Heads

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The index maps, decided over the eight grid points

The row-blocked windows (the input rows and the two outputs) sit at block `t` along the rows and block 0 along the
columns; every weight and bias window sits at block 0, so its block is its whole array. -/

theorem hz2 : (![0, 0] : Fin 2 → Nat) = fun _ => 0 := funext fun a => by fin_cases a <;> rfl
theorem hz1 : (![0] : Fin 1 → Nat) = fun _ => 0 := funext fun a => by fin_cases a <;> rfl

theorem grid_lt (t : Fin cfg0.N) : t.val < 8 := lt_of_lt_of_eq t.isLt N_0

theorem idx_rows : ∀ t : Fin cfg0.N,
    win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

theorem idx_weights : ∀ t : Fin cfg0.N,
    win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-! ## The input blocks, read off the arrays -/

/-- Row `r` of block `t` of the input rows is row `t * 1536 + r` of the array. -/
theorem blk0_row (c : Dev nD) (t : Fin cfg0.N) (r : Fin 1536) (h : Fin 128) (hr : t.val * 1536 + r.val < 12288) :
    (iblk0 V c 0 t : S1536x128.Idx → EReal) (ix2 r h) = V c main_arg0 (ix2 (⟨t.val * 1536 + r.val, hr⟩ : Fin 12288) h) := by
  obtain ⟨e0, e1, -⟩ := idx_rows t
  show V c main_arg0 (((cfg0.win 0).blk t).view.emb (ix2 r h)) = _
  refine congrArg _ (funext fun a => Fin.ext ?_)
  match a with
  | ⟨0, _⟩ => show win0_0.index t (0 : Fin 2) * 1536 + 1 * r.val = t.val * 1536 + r.val; omega
  | ⟨1, _⟩ => show win0_0.index t (1 : Fin 2) * 128 + 1 * h.val = h.val; omega

theorem blk1_eq (c : Dev nD) (t : Fin cfg0.N) : (iblk0 V c 1 t : S128x128.Idx → EReal) = V c main_arg2 := by
  obtain ⟨e0, e1, -⟩ := idx_weights t
  funext y
  show V c main_arg2 (((cfg0.win 1).blk t).view.emb y) = V c main_arg2 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem blk2_eq (c : Dev nD) (t : Fin cfg0.N) : (iblk0 V c 2 t : S128.Idx → EReal) = V c main_arg3 := by
  obtain ⟨-, -, e0, -⟩ := idx_weights t
  funext y
  show V c main_arg3 (((cfg0.win 2).blk t).view.emb y) = V c main_arg3 y
  refine congrArg _ (funext fun a => Fin.ext ?_)
  match a with
  | ⟨0, _⟩ => show win0_2.index t (0 : Fin 1) * 128 + 1 * (y 0).val = (y 0).val; omega

theorem blk3_eq (c : Dev nD) (t : Fin cfg0.N) : (iblk0 V c 3 t : S128x12.Idx → EReal) = V c main_arg4 := by
  obtain ⟨-, -, -, e0, e1, -⟩ := idx_weights t
  funext y
  show V c main_arg4 (((cfg0.win 3).blk t).view.emb y) = V c main_arg4 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 12 + 1 * (y 1).val = (y 1).val; omega

theorem blk4_eq (c : Dev nD) (t : Fin cfg0.N) : (iblk0 V c 4 t : S12.Idx → EReal) = V c main_arg5 := by
  obtain ⟨-, -, -, -, -, e0, -⟩ := idx_weights t
  funext y
  show V c main_arg5 (((cfg0.win 4).blk t).view.emb y) = V c main_arg5 y
  refine congrArg _ (funext fun a => Fin.ext ?_)
  match a with
  | ⟨0, _⟩ => show win0_4.index t (0 : Fin 1) * 12 + 1 * (y 0).val = (y 0).val; omega

theorem blk5_eq (c : Dev nD) (t : Fin cfg0.N) : (iblk0 V c 5 t : S128x128.Idx → EReal) = V c main_arg6 := by
  obtain ⟨-, -, -, -, -, -, e0, e1, -⟩ := idx_weights t
  funext y
  show V c main_arg6 (((cfg0.win 5).blk t).view.emb y) = V c main_arg6 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem blk6_eq (c : Dev nD) (t : Fin cfg0.N) : (iblk0 V c 6 t : S128.Idx → EReal) = V c main_arg7 := by
  obtain ⟨-, -, -, -, -, -, -, -, e0, -⟩ := idx_weights t
  funext y
  show V c main_arg7 (((cfg0.win 6).blk t).view.emb y) = V c main_arg7 y
  refine congrArg _ (funext fun a => Fin.ext ?_)
  match a with
  | ⟨0, _⟩ => show win0_6.index t (0 : Fin 1) * 128 + 1 * (y 0).val = (y 0).val; omega

theorem blk7_eq (c : Dev nD) (t : Fin cfg0.N) : (iblk0 V c 7 t : S128x5.Idx → EReal) = V c main_arg8 := by
  obtain ⟨-, -, -, -, -, -, -, -, -, e0, e1, -⟩ := idx_weights t
  funext y
  show V c main_arg8 (((cfg0.win 7).blk t).view.emb y) = V c main_arg8 y
  refine congrArg _ (funext fun a => Fin.ext ?_)
  match a with
  | ⟨0, _⟩ => show win0_7.index t (0 : Fin 2) * 128 + 1 * (y 0).val = (y 0).val; omega
  | ⟨1, _⟩ => show win0_7.index t (1 : Fin 2) * 5 + 1 * (y 1).val = (y 1).val; omega

theorem blk8_eq (c : Dev nD) (t : Fin cfg0.N) : (iblk0 V c 8 t : S5.Idx → EReal) = V c main_arg9 := by
  obtain ⟨-, -, -, -, -, -, -, -, -, -, -, e0⟩ := idx_weights t
  funext y
  show V c main_arg9 (((cfg0.win 8).blk t).view.emb y) = V c main_arg9 y
  refine congrArg _ (funext fun a => Fin.ext ?_)
  match a with
  | ⟨0, _⟩ => show win0_8.index t (0 : Fin 1) * 5 + 1 * (y 0).val = (y 0).val; omega

/-- The head of a block of rows, with the weights it was given, is the head of the array at the block's rows. -/
theorem head_block_eq {K : Nat} (x : FVec Ideal ⟨2, ![1536, 128]⟩ .f32) (X : FVec Ideal ⟨2, ![12288, 128]⟩ .f32)
    (W1 W1' : FVec Ideal ⟨2, ![128, 128]⟩ .f32) (b1 b1' : FVec Ideal ⟨1, ![128]⟩ .f32)
    (W2 W2' : FVec Ideal ⟨2, ![128, K]⟩ .f32) (b2 b2' : FVec Ideal ⟨1, ![K]⟩ .f32)
    (r : Fin 1536) (r' : Fin 12288) (q : Fin K) (hx : ∀ h : Fin 128, x (ix2 r h) = X (ix2 r' h))
    (h1 : W1 = W1') (h2 : b1 = b1') (h3 : W2 = W2') (h4 : b2 = b2') :
    Cert.Spec.head x W1 b1 W2 b2 (ix2 r q) = Cert.Spec.head X W1' b1' W2' b2' (ix2 r' q) := by
  subst h1 h2 h3 h4
  exact Cert.Spec.head_congr_row x X W1 b1 W2 b2 r r' q hx

/-! ## The 12-output head's array -/

/-- Where row `r`, column `q` of the block of point `t` sits in the array. -/
theorem emb9 (t : Fin cfg0.N) (r : Fin 1536) (q : Fin 12) (hr : t.val * 1536 + r.val < 12288) :
    ((cfg0.win 9).blk t).view.emb (ix2 r q) = ix2 (⟨t.val * 1536 + r.val, hr⟩ : Fin 12288) q := by
  obtain ⟨-, -, e0, e1, -⟩ := idx_rows t
  funext a; apply Fin.ext
  match a with
  | ⟨0, _⟩ => show win0_9.index t (0 : Fin 2) * 1536 + 1 * r.val = t.val * 1536 + r.val; omega
  | ⟨1, _⟩ => show win0_9.index t (1 : Fin 2) * 12 + 1 * q.val = q.val; omega

/-- What point `t` writes back is block `t` of the head of the region-entry arrays. -/
theorem flushed9_eq (c : Dev nD) (t : Fin cfg0.N) :
    (dat0 (F := Ideal) V c).flushed 9 t = ((cfg0.win 9).blk t).view.read (Elt Ideal)
      (Cert.Spec.head (V c main_arg0) (V c main_arg2) (V c main_arg3) (V c main_arg4) (V c main_arg5)) := by
  show (cfg0.win 9).cut (grid0.coords t) ((dat0 V c).after 9 t) = _
  rw [after0_9]
  unfold out0_9
  rw [View.canon_unit_zero hz2]
  simp only [View.ld_unit_zero (S := S1536x128) hz2, View.ld_unit_zero (S := S128x128) hz2, View.ld_unit_zero (S := S128) hz1,
    View.ld_unit_zero (S := S128x12) hz2, View.ld_unit_zero (S := S12) hz1]
  funext j
  obtain ⟨r, q, rfl⟩ : ∃ (r : Fin 1536) (q : Fin 12), j = ix2 r q := ⟨j 0, j 1, eq_ix2 j⟩
  have ht := grid_lt t
  have hr : t.val * 1536 + r.val < 12288 := by have := r.isLt; omega
  show k0_pay3 (iblk0 V c 0 t) (iblk0 V c 1 t) (iblk0 V c 2 t) (iblk0 V c 3 t) (iblk0 V c 4 t) (ix2 r q)
    = Cert.Spec.head (V c main_arg0) (V c main_arg2) (V c main_arg3) (V c main_arg4) (V c main_arg5)
        (((cfg0.win 9).blk t).view.emb (ix2 r q))
  rw [emb9 t r q hr]
  refine (pay3_apply _ _ _ _ _ r q).trans ?_
  exact head_block_eq _ _ _ _ _ _ _ _ _ _ r ⟨t.val * 1536 + r.val, hr⟩ q (fun h => blk0_row V c t r h hr)
    (blk1_eq V c t) (blk2_eq V c t) (blk3_eq V c t) (blk4_eq V c t)

/-- An index of the array is in point `t`'s block iff each coordinate is in the block's range on its axis. -/
theorem mem_blk9 (t : Fin cfg0.N) (i : S12288x12.Idx) :
    i ∈ ((cfg0.win 9).blk t).view.set ↔ ∀ a : Fin 2, win0_9.index t a * S1536x12.size a ≤ (i a).val ∧ (i a).val < win0_9.index t a * S1536x12.size a + S1536x12.size a := by
  show i ∈ ((View.whole main_v0_0).slice (win0_9.rect t)).set ↔ _
  rw [View.set_slice_whole, Rect.mem_set_unit]
  exact Iff.rfl

/-- Row `i 0` is in the block of point `i 0 / 1536`. -/
theorem cover9 (i : S12288x12.Idx) :
    ∃ t : Fin cfg0.N, (cfg0.win 9).flush t = true ∧ i ∈ ((cfg0.win 9).blk t).view.set := by
  have hi0 : (i 0).val < 12288 := (i 0).isLt
  have hi1 : (i 1).val < 12 := (i 1).isLt
  obtain ⟨t, htv⟩ : ∃ t : Fin cfg0.N, t.val = (i 0).val / 1536 :=
    ⟨⟨(i 0).val / 1536, lt_of_lt_of_eq (show (i 0).val / 1536 < 8 by omega) N_0.symm⟩, rfl⟩
  obtain ⟨-, -, e0, e1, -⟩ := idx_rows t
  refine ⟨t, flush0_9 t, ?_⟩
  rw [mem_blk9]
  intro a
  match a with
  | ⟨0, _⟩ => show win0_9.index t (0 : Fin 2) * 1536 ≤ (i 0).val ∧ (i 0).val < win0_9.index t (0 : Fin 2) * 1536 + 1536; omega
  | ⟨1, _⟩ => show win0_9.index t (1 : Fin 2) * 12 ≤ (i 1).val ∧ (i 1).val < win0_9.index t (1 : Fin 2) * 12 + 12; omega

/-- After the first region, the 12-output head's array is the head of the region-entry arrays. -/
theorem final_sym (c : Dev nD) :
    (dat0 (F := Ideal) V c).arrAt 9 cfg0.N
      = Cert.Spec.head (V c main_arg0) (V c main_arg2) (V c main_arg3) (V c main_arg4) (V c main_arg5) :=
  (dat0 (F := Ideal) V c).arrAt_eq_of_cover 9 _ (fun t _ => flushed9_eq V c t) cover9

/-! ## The 5-output head's array -/

/-- Where row `r`, column `q` of the block of point `t` sits in the array. -/
theorem emb10 (t : Fin cfg0.N) (r : Fin 1536) (q : Fin 5) (hr : t.val * 1536 + r.val < 12288) :
    ((cfg0.win 10).blk t).view.emb (ix2 r q) = ix2 (⟨t.val * 1536 + r.val, hr⟩ : Fin 12288) q := by
  obtain ⟨-, -, -, -, e0, e1⟩ := idx_rows t
  funext a; apply Fin.ext
  match a with
  | ⟨0, _⟩ => show win0_10.index t (0 : Fin 2) * 1536 + 1 * r.val = t.val * 1536 + r.val; omega
  | ⟨1, _⟩ => show win0_10.index t (1 : Fin 2) * 5 + 1 * q.val = q.val; omega

/-- What point `t` writes back is block `t` of the head of the region-entry arrays. -/
theorem flushed10_eq (c : Dev nD) (t : Fin cfg0.N) :
    (dat0 (F := Ideal) V c).flushed 10 t = ((cfg0.win 10).blk t).view.read (Elt Ideal)
      (Cert.Spec.head (V c main_arg0) (V c main_arg6) (V c main_arg7) (V c main_arg8) (V c main_arg9)) := by
  show (cfg0.win 10).cut (grid0.coords t) ((dat0 V c).after 10 t) = _
  rw [after0_10]
  unfold out0_10
  rw [View.canon_unit_zero hz2]
  simp only [View.ld_unit_zero (S := S1536x128) hz2, View.ld_unit_zero (S := S128x128) hz2, View.ld_unit_zero (S := S128) hz1,
    View.ld_unit_zero (S := S128x5) hz2, View.ld_unit_zero (S := S5) hz1]
  funext j
  obtain ⟨r, q, rfl⟩ : ∃ (r : Fin 1536) (q : Fin 5), j = ix2 r q := ⟨j 0, j 1, eq_ix2 j⟩
  have ht := grid_lt t
  have hr : t.val * 1536 + r.val < 12288 := by have := r.isLt; omega
  show k0_pay1 (k0_pay4 (iblk0 V c 0 t) (iblk0 V c 5 t) (iblk0 V c 6 t) (iblk0 V c 7 t)) (k0_pay5 (iblk0 V c 8 t)) (ix2 r q)
    = Cert.Spec.head (V c main_arg0) (V c main_arg6) (V c main_arg7) (V c main_arg8) (V c main_arg9)
        (((cfg0.win 10).blk t).view.emb (ix2 r q))
  rw [emb10 t r q hr]
  refine (pay1_apply _ _ _ _ _ r q).trans ?_
  exact head_block_eq _ _ _ _ _ _ _ _ _ _ r ⟨t.val * 1536 + r.val, hr⟩ q (fun h => blk0_row V c t r h hr)
    (blk5_eq V c t) (blk6_eq V c t) (blk7_eq V c t) (blk8_eq V c t)

/-- An index of the array is in point `t`'s block iff each coordinate is in the block's range on its axis. -/
theorem mem_blk10 (t : Fin cfg0.N) (i : S12288x5.Idx) :
    i ∈ ((cfg0.win 10).blk t).view.set ↔ ∀ a : Fin 2, win0_10.index t a * S1536x5.size a ≤ (i a).val ∧ (i a).val < win0_10.index t a * S1536x5.size a + S1536x5.size a := by
  show i ∈ ((View.whole main_v0_1).slice (win0_10.rect t)).set ↔ _
  rw [View.set_slice_whole, Rect.mem_set_unit]
  exact Iff.rfl

/-- Row `i 0` is in the block of point `i 0 / 1536`. -/
theorem cover10 (i : S12288x5.Idx) :
    ∃ t : Fin cfg0.N, (cfg0.win 10).flush t = true ∧ i ∈ ((cfg0.win 10).blk t).view.set := by
  have hi0 : (i 0).val < 12288 := (i 0).isLt
  have hi1 : (i 1).val < 5 := (i 1).isLt
  obtain ⟨t, htv⟩ : ∃ t : Fin cfg0.N, t.val = (i 0).val / 1536 :=
    ⟨⟨(i 0).val / 1536, lt_of_lt_of_eq (show (i 0).val / 1536 < 8 by omega) N_0.symm⟩, rfl⟩
  obtain ⟨-, -, -, -, e0, e1⟩ := idx_rows t
  refine ⟨t, flush0_10 t, ?_⟩
  rw [mem_blk10]
  intro a
  match a with
  | ⟨0, _⟩ => show win0_10.index t (0 : Fin 2) * 1536 ≤ (i 0).val ∧ (i 0).val < win0_10.index t (0 : Fin 2) * 1536 + 1536; omega
  | ⟨1, _⟩ => show win0_10.index t (1 : Fin 2) * 5 ≤ (i 1).val ∧ (i 1).val < win0_10.index t (1 : Fin 2) * 5 + 5; omega

/-- After the first region, the 5-output head's array is the head of the region-entry arrays. -/
theorem final_chg (c : Dev nD) :
    (dat0 (F := Ideal) V c).arrAt 10 cfg0.N
      = Cert.Spec.head (V c main_arg0) (V c main_arg6) (V c main_arg7) (V c main_arg8) (V c main_arg9) :=
  (dat0 (F := Ideal) V c).arrAt_eq_of_cover 10 _ (fun t _ => flushed10_eq V c t) cover10

end Cert.KernelIdeal.Heads

end
-- ==== Proof.PairBlock.lean ====
/- The pairwise head of one block of sixteen molecules: what the body of the second kernel stores, read index by index.

   The body flattens the block [16,48,128] to 768 rows, multiplies the rows by the upper and by the lower first-layer
   weight, views the two products as [16,48,128] again, adds row l of the first to row m of the second for every ordered
   pair (l, m) of atoms of a molecule, adds the bias, rectifies, flattens the [16,48,48,128] hidden layer to 36864 rows,
   multiplies by the second-layer weight, adds the output bias and views the result as [16,48,48,5]. Row b*48+l of the
   768 is atom (b,l); row (b*48+l)*48+m of the 36864 is the pair (b,l,m). Read at (b,l,m,q) this is the specification's
   pairwise head of the block. -/
import proofs.«125245_j27900107555247_1_alg».proof.Proof.Gen.KernelIdeal.Skeleton
import proofs.«125245_j27900107555247_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Pairs

open Idealize.ShloMosaic Idealize.ShloMosaic.ValueIdx
open Cert.KernelIdeal Cert.KernelIdeal.Gen

/-! ## The first-layer product: 768 rows of 128 features against a [128,128] weight -/

theorem lhs_fst_0 (i : S768x128.Idx) (q : dot_S768x128_S128x128_S768x128_1_0_0_1_n_n.contr.Idx) :
    (dot_S768x128_S128x128_S768x128_1_0_0_1_n_n.lhsIdx i q 0).val = (i 0).val := by
  unfold DotDims.lhsIdx
  rw [dif_neg (show ¬(0 : Fin S768x128.rank) ∈ dot_S768x128_S128x128_S768x128_1_0_0_1_n_n.lhsBatch by decide), dif_pos (show (0 : Fin S768x128.rank) ∈ dot_S768x128_S128x128_S768x128_1_0_0_1_n_n.lhsNonContracting by decide)]
  rfl
theorem lhs_fst_1 (i : S768x128.Idx) (q : dot_S768x128_S128x128_S768x128_1_0_0_1_n_n.contr.Idx) :
    (dot_S768x128_S128x128_S768x128_1_0_0_1_n_n.lhsIdx i q 1).val = (q ⟨0, by decide⟩).val :=
  dot_S768x128_S128x128_S768x128_1_0_0_1_n_n.lhsIdx_val_of_single rfl i q
theorem rhs_fst_0 (i : S768x128.Idx) (q : dot_S768x128_S128x128_S768x128_1_0_0_1_n_n.contr.Idx) :
    (dot_S768x128_S128x128_S768x128_1_0_0_1_n_n.rhsIdx i q 0).val = (q ⟨0, by decide⟩).val :=
  dot_S768x128_S128x128_S768x128_1_0_0_1_n_n.rhsIdx_val_of_single rfl i q
theorem rhs_fst_1 (i : S768x128.Idx) (q : dot_S768x128_S128x128_S768x128_1_0_0_1_n_n.contr.Idx) :
    (dot_S768x128_S128x128_S768x128_1_0_0_1_n_n.rhsIdx i q 1).val = (i 1).val := by
  unfold DotDims.rhsIdx
  rw [dif_neg (show ¬(1 : Fin S128x128.rank) ∈ dot_S768x128_S128x128_S768x128_1_0_0_1_n_n.rhsBatch by decide), dif_pos (show (1 : Fin S128x128.rank) ∈ dot_S768x128_S128x128_S768x128_1_0_0_1_n_n.rhsNonContracting by decide)]
  rfl

/-- Entry (r, p) of the product into the zero accumulator is the sum over the 128 features. -/
theorem fst_matmul_apply (A : FVec Ideal S768x128 .bf16) (W : FVec Ideal S128x128 .bf16) (r : Fin 768) (p : Fin 128) :
    matmul dot_S768x128_S128x128_S768x128_1_0_0_1_n_n none A W (constant (F := Ideal) S768x128 .f32 0x00000000#32) (ix2 r p)
      = ∑ h : Fin 128, A (ix2 r h) * W (ix2 h p) := by
  show FloatOps.matmul dot_S768x128_S128x128_S768x128_1_0_0_1_n_n none A W (constant (F := Ideal) S768x128 .f32 0x00000000#32) (ix2 r p) = _
  rw [Ideal.matmul_constant_zero_apply, ← Equiv.sum_comp (contrEquiv1 dot_S768x128_S128x128_S768x128_1_0_0_1_n_n 128 rfl rfl).symm]
  refine Finset.sum_congr rfl fun k _ => ?_
  have hk := contrEquiv1_symm_val dot_S768x128_S128x128_S768x128_1_0_0_1_n_n 128 rfl rfl k
  have el : dot_S768x128_S128x128_S768x128_1_0_0_1_n_n.lhsIdx (ix2 r p) ((contrEquiv1 dot_S768x128_S128x128_S768x128_1_0_0_1_n_n 128 rfl rfl).symm k) = ix2 r k := funext fun a => Fin.ext (by
    match a with
    | ⟨0, _⟩ => exact lhs_fst_0 _ _
    | ⟨1, _⟩ => exact (lhs_fst_1 _ _).trans hk)
  have er : dot_S768x128_S128x128_S768x128_1_0_0_1_n_n.rhsIdx (ix2 r p) ((contrEquiv1 dot_S768x128_S128x128_S768x128_1_0_0_1_n_n 128 rfl rfl).symm k) = ix2 k p := funext fun a => Fin.ext (by
    match a with
    | ⟨0, _⟩ => exact (rhs_fst_0 _ _).trans hk
    | ⟨1, _⟩ => exact rhs_fst_1 _ _)
  rw [el, er]

/-! ## The second-layer product: 36864 rows of 128 hidden units against the [128,5] weight -/

theorem lhs_snd_0 (i : S36864x5.Idx) (q : dot_S36864x128_S128x5_S36864x5_1_0_0_1_n_n.contr.Idx) :
    (dot_S36864x128_S128x5_S36864x5_1_0_0_1_n_n.lhsIdx i q 0).val = (i 0).val := by
  unfold DotDims.lhsIdx
  rw [dif_neg (show ¬(0 : Fin S36864x128.rank) ∈ dot_S36864x128_S128x5_S36864x5_1_0_0_1_n_n.lhsBatch by decide), dif_pos (show (0 : Fin S36864x128.rank) ∈ dot_S36864x128_S128x5_S36864x5_1_0_0_1_n_n.lhsNonContracting by decide)]
  rfl
theorem lhs_snd_1 (i : S36864x5.Idx) (q : dot_S36864x128_S128x5_S36864x5_1_0_0_1_n_n.contr.Idx) :
    (dot_S36864x128_S128x5_S36864x5_1_0_0_1_n_n.lhsIdx i q 1).val = (q ⟨0, by decide⟩).val :=
  dot_S36864x128_S128x5_S36864x5_1_0_0_1_n_n.lhsIdx_val_of_single rfl i q
theorem rhs_snd_0 (i : S36864x5.Idx) (q : dot_S36864x128_S128x5_S36864x5_1_0_0_1_n_n.contr.Idx) :
    (dot_S36864x128_S128x5_S36864x5_1_0_0_1_n_n.rhsIdx i q 0).val = (q ⟨0, by decide⟩).val :=
  dot_S36864x128_S128x5_S36864x5_1_0_0_1_n_n.rhsIdx_val_of_single rfl i q
theorem rhs_snd_1 (i : S36864x5.Idx) (q : dot_S36864x128_S128x5_S36864x5_1_0_0_1_n_n.contr.Idx) :
    (dot_S36864x128_S128x5_S36864x5_1_0_0_1_n_n.rhsIdx i q 1).val = (i 1).val := by
  unfold DotDims.rhsIdx
  rw [dif_neg (show ¬(1 : Fin S128x5.rank) ∈ dot_S36864x128_S128x5_S36864x5_1_0_0_1_n_n.rhsBatch by decide), dif_pos (show (1 : Fin S128x5.rank) ∈ dot_S36864x128_S128x5_S36864x5_1_0_0_1_n_n.rhsNonContracting by decide)]
  rfl

/-- Entry (r, p) of the product into the zero accumulator is the sum over the 128 hidden units. -/
theorem snd_matmul_apply (A : FVec Ideal S36864x128 .bf16) (W : FVec Ideal S128x5 .bf16) (r : Fin 36864) (p : Fin 5) :
    matmul dot_S36864x128_S128x5_S36864x5_1_0_0_1_n_n none A W (constant (F := Ideal) S36864x5 .f32 0x00000000#32) (ix2 r p)
      = ∑ h : Fin 128, A (ix2 r h) * W (ix2 h p) := by
  show FloatOps.matmul dot_S36864x128_S128x5_S36864x5_1_0_0_1_n_n none A W (constant (F := Ideal) S36864x5 .f32 0x00000000#32) (ix2 r p) = _
  rw [Ideal.matmul_constant_zero_apply, ← Equiv.sum_comp (contrEquiv1 dot_S36864x128_S128x5_S36864x5_1_0_0_1_n_n 128 rfl rfl).symm]
  refine Finset.sum_congr rfl fun k _ => ?_
  have hk := contrEquiv1_symm_val dot_S36864x128_S128x5_S36864x5_1_0_0_1_n_n 128 rfl rfl k
  have el : dot_S36864x128_S128x5_S36864x5_1_0_0_1_n_n.lhsIdx (ix2 r p) ((contrEquiv1 dot_S36864x128_S128x5_S36864x5_1_0_0_1_n_n 128 rfl rfl).symm k) = ix2 r k := funext fun a => Fin.ext (by
    match a with
    | ⟨0, _⟩ => exact lhs_snd_0 _ _
    | ⟨1, _⟩ => exact (lhs_snd_1 _ _).trans hk)
  have er : dot_S36864x128_S128x5_S36864x5_1_0_0_1_n_n.rhsIdx (ix2 r p) ((contrEquiv1 dot_S36864x128_S128x5_S36864x5_1_0_0_1_n_n 128 rfl rfl).symm k) = ix2 k p := funext fun a => Fin.ext (by
    match a with
    | ⟨0, _⟩ => exact (rhs_snd_0 _ _).trans hk
    | ⟨1, _⟩ => exact rhs_snd_1 _ _)
  rw [el, er]

/-! ## The layout steps of the body, each read at an index -/

section Layout
variable {α : Type}

/-- Row `b*48+l` of the 768 rows is atom (b, l) of the block. -/
theorem flat_atoms_apply (x : S16x48x128.Idx → α) (b : Fin 16) (l : Fin 48) (h : Fin 128) (r : Fin 768)
    (hr : r.val = b.val * 48 + l.val) :
    shapeCast S768x128 x shapeCasts_S16x48x128_S768x128 (ix2 r h) = x (ix3 b l h) :=
  shapeCast_apply x shapeCasts_S16x48x128_S768x128 (ix2 r h) (ix3 b l h) (by
    rw [Shape.rowMajor_val_three, Shape.rowMajor_val_two]
    show (b.val * 48 + l.val) * 128 + h.val = r.val * 128 + h.val
    rw [hr])

/-- Atom (b, l) of the 768 rows viewed as a block is row `b*48+l`. -/
theorem atoms_of_flat_apply (y : S768x128.Idx → α) (b : Fin 16) (l : Fin 48) (p : Fin 128) (r : Fin 768)
    (hr : r.val = b.val * 48 + l.val) :
    shapeCast S16x48x128 y shapeCasts_S768x128_S16x48x128 (ix3 b l p) = y (ix2 r p) :=
  shapeCast_apply y shapeCasts_S768x128_S16x48x128 (ix3 b l p) (ix2 r p) (by
    rw [Shape.rowMajor_val_three, Shape.rowMajor_val_two]
    show r.val * 128 + p.val = (b.val * 48 + l.val) * 128 + p.val
    rw [hr])

/-- A unit axis put after the atom axis. -/
theorem col_unit_apply (y : S16x48x128.Idx → α) (b : Fin 16) (l : Fin 48) (u : Fin 1) (p : Fin 128) :
    shapeCast S16x48x1x128 y shapeCasts_S16x48x128_S16x48x1x128 (ix4 b l u p) = y (ix3 b l p) :=
  shapeCast_apply y shapeCasts_S16x48x128_S16x48x1x128 (ix4 b l u p) (ix3 b l p) (by
    rw [Shape.rowMajor_val_three, Shape.rowMajor_val_four]
    show (b.val * 48 + l.val) * 128 + p.val = ((b.val * 48 + l.val) * 1 + u.val) * 128 + p.val
    have hu : u.val = 0 := by omega
    rw [hu]; omega)

/-- A unit axis put before the atom axis. -/
theorem row_unit_apply (y : S16x48x128.Idx → α) (b : Fin 16) (u : Fin 1) (m : Fin 48) (p : Fin 128) :
    shapeCast S16x1x48x128 y shapeCasts_S16x48x128_S16x1x48x128 (ix4 b u m p) = y (ix3 b m p) :=
  shapeCast_apply y shapeCasts_S16x48x128_S16x1x48x128 (ix4 b u m p) (ix3 b m p) (by
    rw [Shape.rowMajor_val_three, Shape.rowMajor_val_four]
    show (b.val * 48 + m.val) * 128 + p.val = ((b.val * 1 + u.val) * 48 + m.val) * 128 + p.val
    have hu : u.val = 0 := by omega
    rw [hu]; omega)

/-- Three unit axes put before a vector of 128. -/
theorem bias_unit_apply (y : S128.Idx → α) (u1 u2 u3 : Fin 1) (p : Fin 128) :
    shapeCast S1x1x1x128 y shapeCasts_S128_S1x1x1x128 (ix4 u1 u2 u3 p) = y (ix1 p) :=
  shapeCast_apply y shapeCasts_S128_S1x1x1x128 (ix4 u1 u2 u3 p) (ix1 p) (by
    rw [Shape.rowMajor_val_one, Shape.rowMajor_val_four]
    show p.val = ((u1.val * 1 + u2.val) * 1 + u3.val) * 128 + p.val
    have h1 : u1.val = 0 := by omega
    have h2 : u2.val = 0 := by omega
    have h3 : u3.val = 0 := by omega
    rw [h1, h2, h3]; omega)

/-- The unit axis after the atom axis broadcast over the 48 second atoms. -/
theorem bcast_col_apply (y : S16x48x1x128.Idx → α) (b : Fin 16) (l m : Fin 48) (p : Fin 128) :
    broadcastTo S16x48x48x128 y broadcasts_S16x48x1x128_S16x48x48x128 (ix4 b l m p) = y (ix4 b l (0 : Fin 1) p) := by
  refine broadcastTo_apply y broadcasts_S16x48x1x128_S16x48x48x128 (ix4 b l m p) (ix4 b l (0 : Fin 1) p) fun ax => ?_
  match ax with
  | ⟨0, _⟩ => rfl
  | ⟨1, _⟩ => rfl
  | ⟨2, _⟩ => rfl
  | ⟨3, _⟩ => rfl

/-- The unit axis before the atom axis broadcast over the 48 first atoms. -/
theorem bcast_row_apply (y : S16x1x48x128.Idx → α) (b : Fin 16) (l m : Fin 48) (p : Fin 128) :
    broadcastTo S16x48x48x128 y broadcasts_S16x1x48x128_S16x48x48x128 (ix4 b l m p) = y (ix4 b (0 : Fin 1) m p) := by
  refine broadcastTo_apply y broadcasts_S16x1x48x128_S16x48x48x128 (ix4 b l m p) (ix4 b (0 : Fin 1) m p) fun ax => ?_
  match ax with
  | ⟨0, _⟩ => rfl
  | ⟨1, _⟩ => rfl
  | ⟨2, _⟩ => rfl
  | ⟨3, _⟩ => rfl

/-- The bias broadcast over molecules and pairs. -/
theorem bcast_bias_apply (y : S1x1x1x128.Idx → α) (b : Fin 16) (l m : Fin 48) (p : Fin 128) :
    broadcastTo S16x48x48x128 y broadcasts_S1x1x1x128_S16x48x48x128 (ix4 b l m p)
      = y (ix4 (0 : Fin 1) (0 : Fin 1) (0 : Fin 1) p) := by
  refine broadcastTo_apply y broadcasts_S1x1x1x128_S16x48x48x128 (ix4 b l m p) (ix4 (0 : Fin 1) (0 : Fin 1) (0 : Fin 1) p) fun ax => ?_
  match ax with
  | ⟨0, _⟩ => rfl
  | ⟨1, _⟩ => rfl
  | ⟨2, _⟩ => rfl
  | ⟨3, _⟩ => rfl

/-- Row `(b*48+l)*48+m` of the 36864 rows is the pair (b, l, m). -/
theorem flat_pairs_apply (y : S16x48x48x128.Idx → α) (b : Fin 16) (l m : Fin 48) (p : Fin 128) (R : Fin 36864)
    (hR : R.val = (b.val * 48 + l.val) * 48 + m.val) :
    shapeCast S36864x128 y shapeCasts_S16x48x48x128_S36864x128 (ix2 R p) = y (ix4 b l m p) :=
  shapeCast_apply y shapeCasts_S16x48x48x128_S36864x128 (ix2 R p) (ix4 b l m p) (by
    rw [Shape.rowMajor_val_four, Shape.rowMajor_val_two]
    show ((b.val * 48 + l.val) * 48 + m.val) * 128 + p.val = R.val * 128 + p.val
    rw [hR])

/-- The pair (b, l, m) of the 36864 rows viewed per pair is row `(b*48+l)*48+m`. -/
theorem pairs_of_flat_apply (y : S36864x5.Idx → α) (b : Fin 16) (l m : Fin 48) (q : Fin 5) (R : Fin 36864)
    (hR : R.val = (b.val * 48 + l.val) * 48 + m.val) :
    shapeCast S16x48x48x5 y shapeCasts_S36864x5_S16x48x48x5 (ix4 b l m q) = y (ix2 R q) :=
  shapeCast_apply y shapeCasts_S36864x5_S16x48x48x5 (ix4 b l m q) (ix2 R q) (by
    rw [Shape.rowMajor_val_four, Shape.rowMajor_val_two]
    show R.val * 5 + q.val = ((b.val * 48 + l.val) * 48 + m.val) * 5 + q.val
    rw [hR])

end Layout

/-! ## The body's stages, and each read at an index -/

/-- The block's atoms as 768 rows. -/
def atomRows (x0 : Vec Ideal S16x48x128 .f32) : FVec Ideal S768x128 .bf16 :=
  truncf .bf16 (shapeCast S768x128 (shapeCast S16x48x128 x0 shapeCasts_S16x48x128_S16x48x128) shapeCasts_S16x48x128_S768x128) bitsLt_bf16_f32

theorem atomRows_apply (x0 : Vec Ideal S16x48x128 .f32) (b : Fin 16) (l : Fin 48) (h : Fin 128) (r : Fin 768)
    (hr : r.val = b.val * 48 + l.val) : atomRows x0 (ix2 r h) = x0 (ix3 b l h) := by
  unfold atomRows
  rw [truncf_apply, shapeCast_self]
  exact flat_atoms_apply x0 b l h r hr

/-- The rows against one first-layer weight, viewed per atom again. -/
def atomProj (x0 : Vec Ideal S16x48x128 .f32) (w : Vec Ideal S128x128 .f32) : FVec Ideal S16x48x128 .f32 :=
  shapeCast S16x48x128
    (matmul dot_S768x128_S128x128_S768x128_1_0_0_1_n_n none (atomRows x0)
      (truncf .bf16 (shapeCast S128x128 w shapeCasts_S128x128_S128x128) bitsLt_bf16_f32)
      (constant (F := Ideal) S768x128 .f32 0x00000000#32))
    shapeCasts_S768x128_S16x48x128

/-- Atom (b, l) against column p of the weight. -/
theorem atomProj_apply (x0 : Vec Ideal S16x48x128 .f32) (w : Vec Ideal S128x128 .f32) (b : Fin 16) (l : Fin 48) (p : Fin 128) :
    atomProj x0 w (ix3 b l p) = ∑ h : Fin 128, x0 (ix3 b l h) * w (ix2 h p) := by
  unfold atomProj
  rw [atoms_of_flat_apply _ b l p ⟨b.val * 48 + l.val, by omega⟩ rfl, fst_matmul_apply]
  refine Finset.sum_congr rfl fun h _ => ?_
  rw [atomRows_apply x0 b l h _ rfl, truncf_apply, shapeCast_self]

/-- The hidden layer of every ordered pair of atoms of every molecule of the block. -/
def hiddenBlock (x0 : Vec Ideal S16x48x128 .f32) (x1 x2 : Vec Ideal S128x128 .f32) (x3 : Vec Ideal S128 .f32) :
    FVec Ideal S16x48x48x128 .f32 :=
  maximumf
    (addf
      (addf
        (broadcastTo S16x48x48x128 (shapeCast S16x48x1x128 (atomProj x0 x1) shapeCasts_S16x48x128_S16x48x1x128) broadcasts_S16x48x1x128_S16x48x48x128)
        (broadcastTo S16x48x48x128 (shapeCast S16x1x48x128 (atomProj x0 x2) shapeCasts_S16x48x128_S16x1x48x128) broadcasts_S16x1x48x128_S16x48x48x128))
      (broadcastTo S16x48x48x128 (shapeCast S1x1x1x128 x3 shapeCasts_S128_S1x1x1x128) broadcasts_S1x1x1x128_S16x48x48x128))
    (broadcast S16x48x48x128 (Scalar.ofBits (F := Ideal) .f32 0x00000000#32))

/-- It is the specification's hidden unit. -/
theorem hiddenBlock_apply (x0 : Vec Ideal S16x48x128 .f32) (x1 x2 : Vec Ideal S128x128 .f32) (x3 : Vec Ideal S128 .f32)
    (b : Fin 16) (l m : Fin 48) (p : Fin 128) :
    hiddenBlock x0 x1 x2 x3 (ix4 b l m p) = Cert.Spec.pairHidden x0 x1 x2 x3 b l m p := by
  unfold hiddenBlock Cert.Spec.pairHidden
  rw [maximumf_apply, addf_apply, addf_apply, broadcast_apply, bcast_col_apply, col_unit_apply, bcast_row_apply,
    row_unit_apply, bcast_bias_apply, bias_unit_apply, atomProj_apply, atomProj_apply]
  rfl

/-- The body's stored value is the second layer over the hidden layer. -/
theorem pay_eq (x0 : Vec Ideal S16x48x128 .f32) (x1 x2 : Vec Ideal S128x128 .f32) (x3 : Vec Ideal S128 .f32)
    (x4 : Vec Ideal S128x5 .f32) (x5 : Vec Ideal S5 .f32) :
    k1_pay1 (F := Ideal) x0 x1 x2 x3 x4 x5
      = shapeCast S16x48x48x5
          (addf
            (matmul dot_S36864x128_S128x5_S36864x5_1_0_0_1_n_n none
              (truncf .bf16 (shapeCast S36864x128 (hiddenBlock x0 x1 x2 x3) shapeCasts_S16x48x48x128_S36864x128) bitsLt_bf16_f32)
              (truncf .bf16 x4 bitsLt_bf16_f32)
              (constant (F := Ideal) S36864x5 .f32 0x00000000#32))
            (broadcastTo S36864x5 (shapeCast S1x5 x5 shapeCasts_S5_S1x5) broadcasts_S1x5_S36864x5))
          shapeCasts_S36864x5_S16x48x48x5 := rfl

/-- THE PAYLOAD AT AN INDEX: the pairwise head of the block. -/
theorem pay_apply (x0 : Vec Ideal S16x48x128 .f32) (x1 x2 : Vec Ideal S128x128 .f32) (x3 : Vec Ideal S128 .f32)
    (x4 : Vec Ideal S128x5 .f32) (x5 : Vec Ideal S5 .f32) (b : Fin 16) (l m : Fin 48) (q : Fin 5) :
    k1_pay1 (F := Ideal) x0 x1 x2 x3 x4 x5 (ix4 b l m q) = Cert.Spec.pair x0 x1 x2 x3 x4 x5 (ix4 b l m q) := by
  rw [pay_eq, Cert.Spec.pair_apply,
    pairs_of_flat_apply _ b l m q ⟨(b.val * 48 + l.val) * 48 + m.val, by omega⟩ rfl, addf_apply, snd_matmul_apply,
    broadcastTo_1b_ab_apply, shapeCast_a_1a_apply]
  congr 1
  refine Finset.sum_congr rfl fun p _ => ?_
  rw [truncf_apply, truncf_apply, flat_pairs_apply _ b l m p _ rfl, hiddenBlock_apply]

/-- The payload is the pairwise head of the block. -/
theorem pay_is_pair (x0 : Vec Ideal S16x48x128 .f32) (x1 x2 : Vec Ideal S128x128 .f32) (x3 : Vec Ideal S128 .f32)
    (x4 : Vec Ideal S128x5 .f32) (x5 : Vec Ideal S5 .f32) :
    k1_pay1 (F := Ideal) x0 x1 x2 x3 x4 x5 = Cert.Spec.pair x0 x1 x2 x3 x4 x5 := by
  funext j
  obtain ⟨b, l, m, q, rfl⟩ : ∃ (b : Fin 16) (l m : Fin 48) (q : Fin 5), j = ix4 b l m q := ⟨j 0, j 1, j 2, j 3, eq_ix4 j⟩
  exact pay_apply x0 x1 x2 x3 x4 x5 b l m q

end Cert.KernelIdeal.Pairs

end
-- ==== Proof.PairArrays.lean ====
/- The pairwise head of the second kernel region, from blocks to the array: each of the sixteen points of the grid writes
   back the pairwise head of its block of sixteen molecules; a molecule's result reads that molecule's atoms only, so this
   is that block of the pairwise head of the whole array; and the sixteen blocks tile the 256 molecules. -/
import proofs.«125245_j27900107555247_1_alg».proof.Proof.Gen.KernelIdeal.Frame
import proofs.«125245_j27900107555247_1_alg».proof.Proof.Spec
import proofs.«125245_j27900107555247_1_alg».proof.Proof.PairBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pairs

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## The zero offsets, however spelt -/

theorem zero_off4 : (![0, 0, 0, 0] : Fin 4 → Nat) = fun _ => 0 := funext fun a => by fin_cases a <;> rfl
theorem zero_off3 : (![0, 0, 0] : Fin 3 → Nat) = fun _ => 0 := funext fun a => by fin_cases a <;> rfl
theorem zero_off2 : (![0, 0] : Fin 2 → Nat) = fun _ => 0 := funext fun a => by fin_cases a <;> rfl
theorem zero_off1 : (![0] : Fin 1 → Nat) = fun _ => 0 := funext fun a => by fin_cases a <;> rfl

/-! ## The index maps over the grid -/

/-- Decided over the sixteen points: the atoms' window moves with the output's along the molecule axis and stands at
    zero elsewhere; the weights' and biases' windows stand at zero; the output's block index along the molecule axis is
    at most 15 and zero elsewhere. -/
theorem idx_facts : ∀ t : Fin cfg1.N,
    win1_0.index t (0 : Fin 3) = win1_6.index t (0 : Fin 4) ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 4) ≤ 15 ∧ win1_6.index t (1 : Fin 4) = 0 ∧ win1_6.index t (2 : Fin 4) = 0
    ∧ win1_6.index t (3 : Fin 4) = 0 :=
  (by decide +kernel : ∀ t : Fin grid1.N, _)

/-- Every one of the sixteen blocks of molecules is some point's. -/
theorem idx_onto : ∀ q0 : Fin 16, ∃ t : Fin cfg1.N, win1_6.index t = ![q0.val, 0, 0, 0] :=
  (by decide +kernel : ∀ q0 : Fin 16, ∃ t : Fin grid1.N, win1_6.index t = ![q0.val, 0, 0, 0])

variable (V : (c : Dev nD) → (b : Ref sig .tc) → Buf (Elt Ideal) ((c : Thread nD τ).loc b))

/-! ## The input blocks at a point -/

/-- Molecule b of the atoms' block at point t is molecule (block index)*16 + b of the array. -/
theorem blk_atoms (c : Dev nD) (t : Fin cfg1.N) (b : Fin 16) (a : Fin 48) (h : Fin 128) (g : Fin 256)
    (hg : g.val = win1_6.index t (0 : Fin 4) * 16 + b.val) :
    (iblk1 (F := Ideal) V c 0 t : Vec Ideal S16x48x128 .f32) (ix3 b a h) = V c main_v1 (ix3 g a h) := by
  obtain ⟨e0, e1, e2, -⟩ := idx_facts t
  show V c main_v1 (((cfg1.win 0).blk t).view.emb (ix3 b a h)) = V c main_v1 (ix3 g a h)
  refine congrArg _ (funext fun ax => Fin.ext ?_)
  match ax with
  | ⟨0, _⟩ => show win1_0.index t (0 : Fin 3) * 16 + 1 * b.val = g.val; omega
  | ⟨1, _⟩ => show win1_0.index t (1 : Fin 3) * 48 + 1 * a.val = a.val; omega
  | ⟨2, _⟩ => show win1_0.index t (2 : Fin 3) * 128 + 1 * h.val = h.val; omega

/-- The upper first-layer weight's block is the whole array. -/
theorem blk_Wt (c : Dev nD) (t : Fin cfg1.N) : (iblk1 (F := Ideal) V c 1 t : Vec Ideal S128x128 .f32) = V c main_v2 := by
  obtain ⟨-, -, -, e0, e1, -⟩ := idx_facts t
  funext y
  show V c main_v2 (((cfg1.win 1).blk t).view.emb y) = V c main_v2 y
  refine congrArg _ (funext fun ax => Fin.ext ?_)
  match ax with
  | ⟨0, _⟩ => show win1_1.index t (0 : Fin 2) * 128 + 1 * (y 0).val = (y 0).val; omega
  | ⟨1, _⟩ => show win1_1.index t (1 : Fin 2) * 128 + 1 * (y 1).val = (y 1).val; omega

/-- The lower first-layer weight's block is the whole array. -/
theorem blk_Wb (c : Dev nD) (t : Fin cfg1.N) : (iblk1 (F := Ideal) V c 2 t : Vec Ideal S128x128 .f32) = V c main_v3 := by
  obtain ⟨-, -, -, -, -, e0, e1, -⟩ := idx_facts t
  funext y
  show V c main_v3 (((cfg1.win 2).blk t).view.emb y) = V c main_v3 y
  refine congrArg _ (funext fun ax => Fin.ext ?_)
  match ax with
  | ⟨0, _⟩ => show win1_2.index t (0 : Fin 2) * 128 + 1 * (y 0).val = (y 0).val; omega
  | ⟨1, _⟩ => show win1_2.index t (1 : Fin 2) * 128 + 1 * (y 1).val = (y 1).val; omega

/-- The first-layer bias's block is the whole array. -/
theorem blk_b1 (c : Dev nD) (t : Fin cfg1.N) : (iblk1 (F := Ideal) V c 3 t : Vec Ideal S128 .f32) = V c main_arg11 := by
  obtain ⟨-, -, -, -, -, -, -, e0, -⟩ := idx_facts t
  funext y
  show V c main_arg11 (((cfg1.win 3).blk t).view.emb y) = V c main_arg11 y
  refine congrArg _ (funext fun ax => Fin.ext ?_)
  match ax with
  | ⟨0, _⟩ => show win1_3.index t (0 : Fin 1) * 128 + 1 * (y 0).val = (y 0).val; omega

/-- The second-layer weight's block is the whole array. -/
theorem blk_W2 (c : Dev nD) (t : Fin cfg1.N) : (iblk1 (F := Ideal) V c 4 t : Vec Ideal S128x5 .f32) = V c main_arg12 := by
  obtain ⟨-, -, -, -, -, -, -, -, e0, e1, -⟩ := idx_facts t
  funext y
  show V c main_arg12 (((cfg1.win 4).blk t).view.emb y) = V c main_arg12 y
  refine congrArg _ (funext fun ax => Fin.ext ?_)
  match ax with
  | ⟨0, _⟩ => show win1_4.index t (0 : Fin 2) * 128 + 1 * (y 0).val = (y 0).val; omega
  | ⟨1, _⟩ => show win1_4.index t (1 : Fin 2) * 5 + 1 * (y 1).val = (y 1).val; omega

/-- The output bias's block is the whole array. -/
theorem blk_b2 (c : Dev nD) (t : Fin cfg1.N) : (iblk1 (F := Ideal) V c 5 t : Vec Ideal S5 .f32) = V c main_arg13 := by
  obtain ⟨-, -, -, -, -, -, -, -, -, -, e0, -⟩ := idx_facts t
  funext y
  show V c main_arg13 (((cfg1.win 5).blk t).view.emb y) = V c main_arg13 y
  refine congrArg _ (funext fun ax => Fin.ext ?_)
  match ax with
  | ⟨0, _⟩ => show win1_5.index t (0 : Fin 1) * 5 + 1 * (y 0).val = (y 0).val; omega

/-- Entry (b, l, m, q) of the output's block at point t sits at molecule (block index)*16 + b of the array. -/
theorem emb_out (t : Fin cfg1.N) (b : Fin 16) (l m : Fin 48) (q : Fin 5) (g : Fin 256)
    (hg : g.val = win1_6.index t (0 : Fin 4) * 16 + b.val) :
    ((cfg1.win 6).blk t).view.emb (ix4 b l m q) = (ix4 g l m q : S256x48x48x5.Idx) := by
  obtain ⟨-, -, -, -, -, -, -, -, -, -, -, -, e1, e2, e3⟩ := idx_facts t
  refine funext fun ax => Fin.ext ?_
  match ax with
  | ⟨0, _⟩ => show win1_6.index t (0 : Fin 4) * 16 + 1 * b.val = g.val; omega
  | ⟨1, _⟩ => show win1_6.index t (1 : Fin 4) * 48 + 1 * l.val = l.val; omega
  | ⟨2, _⟩ => show win1_6.index t (2 : Fin 4) * 48 + 1 * m.val = m.val; omega
  | ⟨3, _⟩ => show win1_6.index t (3 : Fin 4) * 5 + 1 * q.val = q.val; omega

/-! ## What a point writes back -/

/-- WHAT POINT t WRITES BACK is block t of the pairwise head of the region-entry arrays. -/
theorem flushed_pair (c : Dev nD) (t : Fin cfg1.N) :
    (dat1 (F := Ideal) V c).flushed 6 t
      = ((cfg1.win 6).blk t).view.read (Elt Ideal)
          (Cert.Spec.pair (V c main_v1) (V c main_v2) (V c main_v3) (V c main_arg11) (V c main_arg12) (V c main_arg13)) := by
  show (cfg1.win 6).cut (grid1.coords t) ((dat1 (F := Ideal) V c).after 6 t) = _
  rw [after1_6]
  unfold out1_6
  rw [View.canon_unit_zero zero_off4]
  simp only [View.ld_unit_zero (S := S16x48x128) zero_off3, View.ld_unit_zero (S := S128x128) zero_off2,
    View.ld_unit_zero (S := S128) zero_off1, View.ld_unit_zero (S := S128x5) zero_off2, View.ld_unit_zero (S := S5) zero_off1]
  rw [pay_is_pair]
  funext j
  obtain ⟨b, l, m, q, rfl⟩ : ∃ (b : Fin 16) (l m : Fin 48) (q : Fin 5), j = ix4 b l m q :=
    ⟨j 0, j 1, j 2, j 3, eq_ix4 j⟩
  obtain ⟨-, -, -, -, -, -, -, -, -, -, -, hle, -⟩ := idx_facts t
  have hb : b.val < 16 := b.isLt
  show Cert.Spec.pair (iblk1 (F := Ideal) V c 0 t) (iblk1 (F := Ideal) V c 1 t) (iblk1 (F := Ideal) V c 2 t)
        (iblk1 (F := Ideal) V c 3 t) (iblk1 (F := Ideal) V c 4 t) (iblk1 (F := Ideal) V c 5 t) (ix4 b l m q)
      = Cert.Spec.pair (V c main_v1) (V c main_v2) (V c main_v3) (V c main_arg11) (V c main_arg12) (V c main_arg13)
          (((cfg1.win 6).blk t).view.emb (ix4 b l m q))
  rw [emb_out t b l m q ⟨win1_6.index t (0 : Fin 4) * 16 + b.val, by omega⟩ rfl, blk_Wt, blk_Wb, blk_b1, blk_W2, blk_b2]
  exact Cert.Spec.pair_congr_mol _ _ _ _ _ _ _ b _ l m q (fun a h => blk_atoms V c t b a h _ rfl)

/-! ## The blocks tile the array -/

/-- An index of the array is in point t's block iff each coordinate is in the block's range on its axis. -/
theorem mem_blk_out (t : Fin cfg1.N) (i : S256x48x48x5.Idx) :
    i ∈ ((cfg1.win 6).blk t).view.set ↔ ∀ a : Fin 4, win1_6.index t a * S16x48x48x5.size a ≤ (i a).val
      ∧ (i a).val < win1_6.index t a * S16x48x48x5.size a + S16x48x48x5.size a := by
  show i ∈ ((View.whole main_v4).slice (win1_6.rect t)).set ↔ _
  rw [View.set_slice_whole, Rect.mem_set_unit]
  exact Iff.rfl

/-- Every index of the array is in the block of the point whose block index is its molecule over sixteen, and that
    point writes back. -/
theorem cover_out (i : S256x48x48x5.Idx) :
    ∃ t : Fin cfg1.N, (cfg1.win 6).flush t = true ∧ i ∈ ((cfg1.win 6).blk t).view.set := by
  have hi0 : (i 0).val < 256 := (i 0).isLt
  have hi1 : (i 1).val < 48 := (i 1).isLt
  have hi2 : (i 2).val < 48 := (i 2).isLt
  have hi3 : (i 3).val < 5 := (i 3).isLt
  obtain ⟨t, ht⟩ := idx_onto ⟨(i 0).val / 16, by omega⟩
  have q0 : win1_6.index t (0 : Fin 4) = (i 0).val / 16 := congrFun ht 0
  have q1 : win1_6.index t (1 : Fin 4) = 0 := congrFun ht 1
  have q2 : win1_6.index t (2 : Fin 4) = 0 := congrFun ht 2
  have q3 : win1_6.index t (3 : Fin 4) = 0 := congrFun ht 3
  refine ⟨t, flush1_6 t, ?_⟩
  rw [mem_blk_out]
  intro a
  match a with
  | ⟨0, _⟩ => show win1_6.index t (0 : Fin 4) * 16 ≤ (i 0).val ∧ (i 0).val < win1_6.index t (0 : Fin 4) * 16 + 16; omega
  | ⟨1, _⟩ => show win1_6.index t (1 : Fin 4) * 48 ≤ (i 1).val ∧ (i 1).val < win1_6.index t (1 : Fin 4) * 48 + 48; omega
  | ⟨2, _⟩ => show win1_6.index t (2 : Fin 4) * 48 ≤ (i 2).val ∧ (i 2).val < win1_6.index t (2 : Fin 4) * 48 + 48; omega
  | ⟨3, _⟩ => show win1_6.index t (3 : Fin 4) * 5 ≤ (i 3).val ∧ (i 3).val < win1_6.index t (3 : Fin 4) * 5 + 5; omega

/-! ## The array after the region -/

/-- After the second region, its output array is the pairwise head of the region-entry arrays. -/
theorem final_pair (c : Dev nD) :
    (dat1 (F := Ideal) V c).arrAt 6 cfg1.N
      = Cert.Spec.pair (V c main_v1) (V c main_v2) (V c main_v3) (V c main_arg11) (V c main_arg12) (V c main_arg13) := by
  exact (dat1 (F := Ideal) V c).arrAt_eq_of_cover 6 _ (fun t _ => flushed_pair V c t) cover_out

end Cert.KernelIdeal.Pairs

end
-- ==== Proof.RefValue.lean ====
/-
  The reference's three stages are the specification's functions.

  Each perceptron head: at (r, q) the output layer is the sum over the 128 hidden units of the rectified hidden layer at
  (r, k) times W2[k, q], plus the bias; the hidden layer at (r, k) is the sum over the 128 features of x[r, h] times
  W1[h, k], plus the bias, rectified at the value of the word of +0.0.

  The pairwise head: the joined array has, for the pair (b, l, m), the 128 features of atom l followed by the 128
  features of atom m. Its contraction against the 256-row weight splits into the first 128 and the last 128 terms; the
  first half reads atom l against the upper 128 rows of the weight, the second half atom m against the lower 128 rows.
-/
import proofs.«125245_j27900107555247_1_alg».proof.Proof.Gen.ReferenceIdeal.Read
import proofs.«125245_j27900107555247_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-! ## The first head (12 outputs) -/

/-- Index equations of the first head's hidden layer: the product's operands and the bias at (r, k). -/
theorem lidx_v0_ix (r : Fin 12288) (k h : Fin 128) : lidx_main_v0 (ix2 r k) h = ix2 r h :=
  funext fun a => Fin.ext (by match a with | ⟨0, _⟩ => rfl | ⟨1, _⟩ => rfl)
theorem ridx_v0_ix (r : Fin 12288) (k h : Fin 128) : ridx_main_v0 (ix2 r k) h = ix2 h k :=
  funext fun a => Fin.ext (by match a with | ⟨0, _⟩ => rfl | ⟨1, _⟩ => rfl)
theorem idx_v1_v2_ix (r : Fin 12288) (k : Fin 128) : idx_main_v1 (idx_main_v2 (ix2 r k)) = ix1 k :=
  funext fun a => Fin.ext (by match a with | ⟨0, _⟩ => rfl)

/-- The rectified hidden layer of the first head at (r, k) is the specification's hidden unit. -/
theorem sym_hidden (x0 : FVec Ideal S12288x128 .f32) (x2 : FVec Ideal S128x128 .f32) (x3 : FVec Ideal S128 .f32)
    (r : Fin 12288) (k : Fin 128) :
    val_main_v4 (F := Ideal) x0 x2 x3 (ix2 r k) = Cert.Spec.hidden x0 x2 x3 r k := by
  rw [val_main_v4_apply, val_main_v3_apply, val_main_v0_apply, val_main_v2_apply, val_main_v1_apply,
    val_main_call0_v0_apply, val_main_call0_cst_apply]
  simp only [lidx_v0_ix, ridx_v0_ix, idx_v1_v2_ix, Ideal.addf_def, Ideal.maximumf_def, Ideal.ofBits_def]
  rfl

/-- Index equations of the first head's output layer at (r, q). -/
theorem lidx_v5_ix (r : Fin 12288) (q : Fin 12) (k : Fin 128) : lidx_main_v5 (ix2 r q) k = ix2 r k :=
  funext fun a => Fin.ext (by match a with | ⟨0, _⟩ => rfl | ⟨1, _⟩ => rfl)
theorem ridx_v5_ix (r : Fin 12288) (q : Fin 12) (k : Fin 128) : ridx_main_v5 (ix2 r q) k = ix2 k q :=
  funext fun a => Fin.ext (by match a with | ⟨0, _⟩ => rfl | ⟨1, _⟩ => rfl)
theorem idx_v6_v7_ix (r : Fin 12288) (q : Fin 12) : idx_main_v6 (idx_main_v7 (ix2 r q)) = ix1 q :=
  funext fun a => Fin.ext (by match a with | ⟨0, _⟩ => rfl)

theorem sym_eq (x0 : FVec Ideal S12288x128 .f32) (x2 : FVec Ideal S128x128 .f32) (x3 : FVec Ideal S128 .f32)
    (x4 : FVec Ideal S128x12 .f32) (x5 : FVec Ideal S12 .f32) :
    val_main_v8 (F := Ideal) x0 x2 x3 x4 x5 = Cert.Spec.head x0 x2 x3 x4 x5 := by
  funext i
  obtain ⟨r, q, rfl⟩ : ∃ (r : Fin 12288) (q : Fin 12), i = ix2 r q := ⟨i 0, i 1, eq_ix2 i⟩
  rw [Cert.Spec.head_apply, val_main_v8_apply, val_main_v5_apply, val_main_v7_apply, val_main_v6_apply]
  simp only [lidx_v5_ix, ridx_v5_ix, idx_v6_v7_ix, sym_hidden, Ideal.addf_def]

/-! ## The second head (5 outputs) -/

/-- Index equations of the second head's hidden layer at (r, k). -/
theorem lidx_v9_ix (r : Fin 12288) (k h : Fin 128) : lidx_main_v9 (ix2 r k) h = ix2 r h :=
  funext fun a => Fin.ext (by match a with | ⟨0, _⟩ => rfl | ⟨1, _⟩ => rfl)
theorem ridx_v9_ix (r : Fin 12288) (k h : Fin 128) : ridx_main_v9 (ix2 r k) h = ix2 h k :=
  funext fun a => Fin.ext (by match a with | ⟨0, _⟩ => rfl | ⟨1, _⟩ => rfl)
theorem idx_v10_v11_ix (r : Fin 12288) (k : Fin 128) : idx_main_v10 (idx_main_v11 (ix2 r k)) = ix1 k :=
  funext fun a => Fin.ext (by match a with | ⟨0, _⟩ => rfl)

/-- The rectified hidden layer of the second head at (r, k) is the specification's hidden unit. -/
theorem chg_hidden (x0 : FVec Ideal S12288x128 .f32) (x6 : FVec Ideal S128x128 .f32) (x7 : FVec Ideal S128 .f32)
    (r : Fin 12288) (k : Fin 128) :
    val_main_v13 (F := Ideal) x0 x6 x7 (ix2 r k) = Cert.Spec.hidden x0 x6 x7 r k := by
  rw [val_main_v13_apply, val_main_v12_apply, val_main_v9_apply, val_main_v11_apply, val_main_v10_apply,
    val_main_call1_v0_apply, val_main_call1_cst_apply]
  simp only [lidx_v9_ix, ridx_v9_ix, idx_v10_v11_ix, Ideal.addf_def, Ideal.maximumf_def, Ideal.ofBits_def]
  rfl

/-- Index equations of the second head's output layer at (r, q). -/
theorem lidx_v14_ix (r : Fin 12288) (q : Fin 5) (k : Fin 128) : lidx_main_v14 (ix2 r q) k = ix2 r k :=
  funext fun a => Fin.ext (by match a with | ⟨0, _⟩ => rfl | ⟨1, _⟩ => rfl)
theorem ridx_v14_ix (r : Fin 12288) (q : Fin 5) (k : Fin 128) : ridx_main_v14 (ix2 r q) k = ix2 k q :=
  funext fun a => Fin.ext (by match a with | ⟨0, _⟩ => rfl | ⟨1, _⟩ => rfl)
theorem idx_v15_v16_ix (r : Fin 12288) (q : Fin 5) : idx_main_v15 (idx_main_v16 (ix2 r q)) = ix1 q :=
  funext fun a => Fin.ext (by match a with | ⟨0, _⟩ => rfl)

theorem chg_eq (x0 : FVec Ideal S12288x128 .f32) (x6 : FVec Ideal S128x128 .f32) (x7 : FVec Ideal S128 .f32)
    (x8 : FVec Ideal S128x5 .f32) (x9 : FVec Ideal S5 .f32) :
    val_main_v17 (F := Ideal) x0 x6 x7 x8 x9 = Cert.Spec.head x0 x6 x7 x8 x9 := by
  funext i
  obtain ⟨r, q, rfl⟩ : ∃ (r : Fin 12288) (q : Fin 5), i = ix2 r q := ⟨i 0, i 1, eq_ix2 i⟩
  rw [Cert.Spec.head_apply, val_main_v17_apply, val_main_v14_apply, val_main_v16_apply, val_main_v15_apply]
  simp only [lidx_v14_ix, ridx_v14_ix, idx_v15_v16_ix, chg_hidden, Ideal.addf_def]

/-! ## The pairwise head -/

/-- The concatenation of the two broadcast copies along the feature axis: feature h < 128 of the pair (b, l, m) comes
    from the first copy. -/
theorem cat_left (x0 : FVec Ideal S12288x128 .f32) (b : Fin 256) (l m : Fin 48) (h : Fin 128) (hh : h.val < 256) :
    val_main_v23 (F := Ideal) x0 (ix4 b l m (⟨h.val, hh⟩ : Fin 256)) = val_main_v20 (F := Ideal) x0 (ix4 b l m h) := by
  unfold val_main_v23
  refine concatenate_pair_apply_left (s₁ := S256x48x48x128) (s₂ := S256x48x48x128) (3 : Fin S256x48x48x256.rank) _ _ _ (ix4 b l m (⟨h.val, hh⟩ : Fin 256)) rfl
    (ix4 b l m h) ?_
  intro c
  match c with
  | ⟨0, _⟩ => rfl
  | ⟨1, _⟩ => rfl
  | ⟨2, _⟩ => rfl
  | ⟨3, _⟩ => rfl

/-- Feature 128 + h of the pair (b, l, m) comes from the second copy, at feature h. -/
theorem cat_right (x0 : FVec Ideal S12288x128 .f32) (b : Fin 256) (l m : Fin 48) (h : Fin 128) (hh : 128 + h.val < 256) :
    val_main_v23 (F := Ideal) x0 (ix4 b l m (⟨128 + h.val, hh⟩ : Fin 256)) = val_main_v22 (F := Ideal) x0 (ix4 b l m h) := by
  unfold val_main_v23
  refine concatenate_pair_apply_right (s₁ := S256x48x48x128) (s₂ := S256x48x48x128) (3 : Fin S256x48x48x256.rank) _ _ _ (ix4 b l m (⟨128 + h.val, hh⟩ : Fin 256)) rfl rfl
    (ix4 b l m h) ?_ ?_
  · intro c hc
    match c with
    | ⟨0, _⟩ => rfl
    | ⟨1, _⟩ => rfl
    | ⟨2, _⟩ => rfl
    | ⟨3, _⟩ => exact (hc rfl).elim
  · show h.val + 128 = 128 + h.val
    omega

/-- The two broadcasts of the reshaped features: the first copy reads atom l, the second atom m. -/
theorem idx_v19_v20_ix (b : Fin 256) (l m : Fin 48) (h : Fin 128) :
    idx_main_v19 (idx_main_v20 (ix4 b l m h)) = ix3 b l h :=
  funext fun a => Fin.ext (by match a with | ⟨0, _⟩ => rfl | ⟨1, _⟩ => rfl | ⟨2, _⟩ => rfl)
theorem idx_v21_v22_ix (b : Fin 256) (l m : Fin 48) (h : Fin 128) :
    idx_main_v21 (idx_main_v22 (ix4 b l m h)) = ix3 b m h :=
  funext fun a => Fin.ext (by match a with | ⟨0, _⟩ => rfl | ⟨1, _⟩ => rfl | ⟨2, _⟩ => rfl)

theorem first_copy (x0 : FVec Ideal S12288x128 .f32) (hc : S12288x128.ShapeCasts S256x48x128)
    (b : Fin 256) (l m : Fin 48) (h : Fin 128) :
    val_main_v20 (F := Ideal) x0 (ix4 b l m h) = shapeCast S256x48x128 x0 hc (ix3 b l h) := by
  rw [val_main_v20_apply, val_main_v19_apply, idx_v19_v20_ix]
  rfl
theorem second_copy (x0 : FVec Ideal S12288x128 .f32) (hc : S12288x128.ShapeCasts S256x48x128)
    (b : Fin 256) (l m : Fin 48) (h : Fin 128) :
    val_main_v22 (F := Ideal) x0 (ix4 b l m h) = shapeCast S256x48x128 x0 hc (ix3 b m h) := by
  rw [val_main_v22_apply, val_main_v21_apply, idx_v21_v22_ix]
  rfl

/-- Row h of the upper slice of the 256-row weight is its row h; row h of the lower slice is its row 128 + h. -/
theorem upper_row (x10 : FVec Ideal S256x128 .f32) (ht : S256x128.Slices ![0, 0] S128x128) (h p : Fin 128) (hh : h.val < 256) :
    x10 (ix2 (⟨h.val, hh⟩ : Fin 256) p) = extractStridedSlice S128x128 ![0, 0] x10 ht (ix2 h p) :=
  (extractStridedSlice_apply ![0, 0] x10 ht (ix2 h p) (ix2 (⟨h.val, hh⟩ : Fin 256) p) (fun a => by
    match a with
    | ⟨0, _⟩ => exact (Nat.zero_add _).symm
    | ⟨1, _⟩ => exact (Nat.zero_add _).symm)).symm
theorem lower_row (x10 : FVec Ideal S256x128 .f32) (hb : S256x128.Slices ![128, 0] S128x128) (h p : Fin 128) (hh : 128 + h.val < 256) :
    x10 (ix2 (⟨128 + h.val, hh⟩ : Fin 256) p) = extractStridedSlice S128x128 ![128, 0] x10 hb (ix2 h p) :=
  (extractStridedSlice_apply ![128, 0] x10 hb (ix2 h p) (ix2 (⟨128 + h.val, hh⟩ : Fin 256) p) (fun a => by
    match a with
    | ⟨0, _⟩ => rfl
    | ⟨1, _⟩ => exact (Nat.zero_add _).symm)).symm

/-- Index equations of the pairwise hidden layer at (b, l, m, p): the contraction runs over the 256 joined features. -/
theorem lidx_v24_ix (b : Fin 256) (l m : Fin 48) (p : Fin 128) (k : Fin 256) :
    lidx_main_v24 (ix4 b l m p) k = ix4 b l m k :=
  funext fun a => Fin.ext (by match a with | ⟨0, _⟩ => rfl | ⟨1, _⟩ => rfl | ⟨2, _⟩ => rfl | ⟨3, _⟩ => rfl)
theorem ridx_v24_ix (b : Fin 256) (l m : Fin 48) (p : Fin 128) (k : Fin 256) :
    ridx_main_v24 (ix4 b l m p) k = ix2 k p :=
  funext fun a => Fin.ext (by match a with | ⟨0, _⟩ => rfl | ⟨1, _⟩ => rfl)
theorem idx_v25_v26_ix (b : Fin 256) (l m : Fin 48) (p : Fin 128) :
    idx_main_v25 (idx_main_v26 (ix4 b l m p)) = ix1 p :=
  funext fun a => Fin.ext (by match a with | ⟨0, _⟩ => rfl)

/-- The rectified pairwise hidden layer at (b, l, m, p): the contraction over the 256 joined features against the
    256-row weight is the sum of atom l against the upper 128 rows and atom m against the lower 128 rows. -/
theorem pair_hidden (x0 : FVec Ideal S12288x128 .f32) (x10 : FVec Ideal S256x128 .f32) (x11 : FVec Ideal S128 .f32)
    (hc : S12288x128.ShapeCasts S256x48x128) (ht : S256x128.Slices ![0, 0] S128x128)
    (hb : S256x128.Slices ![128, 0] S128x128) (b : Fin 256) (l m : Fin 48) (p : Fin 128) :
    val_main_v28 (F := Ideal) x0 x10 x11 (ix4 b l m p)
      = Cert.Spec.pairHidden (shapeCast S256x48x128 x0 hc) (extractStridedSlice S128x128 ![0, 0] x10 ht)
          (extractStridedSlice S128x128 ![128, 0] x10 hb) x11 b l m p := by
  rw [val_main_v28_apply, val_main_v27_apply, val_main_v24_apply, val_main_v26_apply, val_main_v25_apply,
    val_main_call2_v0_apply, val_main_call2_cst_apply, Cert.Spec.sum_two_halves]
  simp only [lidx_v24_ix, ridx_v24_ix, idx_v25_v26_ix, cat_left, cat_right, first_copy x0 hc, second_copy x0 hc,
    upper_row x10 ht, lower_row x10 hb, Ideal.addf_def, Ideal.maximumf_def, Ideal.ofBits_def]
  rfl

/-- Index equations of the pairwise output layer at (b, l, m, q). -/
theorem lidx_v29_ix (b : Fin 256) (l m : Fin 48) (q : Fin 5) (k : Fin 128) :
    lidx_main_v29 (ix4 b l m q) k = ix4 b l m k :=
  funext fun a => Fin.ext (by match a with | ⟨0, _⟩ => rfl | ⟨1, _⟩ => rfl | ⟨2, _⟩ => rfl | ⟨3, _⟩ => rfl)
theorem ridx_v29_ix (b : Fin 256) (l m : Fin 48) (q : Fin 5) (k : Fin 128) :
    ridx_main_v29 (ix4 b l m q) k = ix2 k q :=
  funext fun a => Fin.ext (by match a with | ⟨0, _⟩ => rfl | ⟨1, _⟩ => rfl)
theorem idx_v30_v31_ix (b : Fin 256) (l m : Fin 48) (q : Fin 5) :
    idx_main_v30 (idx_main_v31 (ix4 b l m q)) = ix1 q :=
  funext fun a => Fin.ext (by match a with | ⟨0, _⟩ => rfl)

/-- The reference's pairwise stage before its last reshape: the pairwise head of the reshaped features against the
    upper and the lower 128 rows of the first-layer weight. -/
theorem pair_eq (x0 : FVec Ideal S12288x128 .f32) (x10 : FVec Ideal S256x128 .f32) (x11 : FVec Ideal S128 .f32)
    (x12 : FVec Ideal S128x5 .f32) (x13 : FVec Ideal S5 .f32)
    (hc : S12288x128.ShapeCasts S256x48x128) (ht : S256x128.Slices ![0, 0] S128x128) (hb : S256x128.Slices ![128, 0] S128x128) :
    val_main_v32 (F := Ideal) x0 x10 x11 x12 x13
      = Cert.Spec.pair (shapeCast S256x48x128 x0 hc) (extractStridedSlice S128x128 ![0, 0] x10 ht)
          (extractStridedSlice S128x128 ![128, 0] x10 hb) x11 x12 x13 := by
  funext i
  obtain ⟨b, l, m, q, rfl⟩ : ∃ (b : Fin 256) (l m : Fin 48) (q : Fin 5), i = ix4 b l m q :=
    ⟨i 0, i 1, i 2, i 3, eq_ix4 i⟩
  rw [Cert.Spec.pair_apply, val_main_v32_apply, val_main_v29_apply, val_main_v31_apply, val_main_v30_apply]
  simp only [lidx_v29_ix, ridx_v29_ix, idx_v30_v31_ix, pair_hidden x0 x10 x11 hc ht hb, Ideal.addf_def]

end Cert.ReferenceIdeal.RefValue

end
-- ==== Proof.lean ====
/-
  The certificate's claim: the two frames of the kernel program (as printed, and idealized), the frame of the idealized
  reference, the (empty) ledger of the idealization, and the equivalence of the two idealized programs over the
  extended reals.

  The program computes three results from the atom features `x` : [12288,128]. Two perceptron heads,
    head x W1 b1 W2 b2 [r,q] = (Σ_k max (Σ_h x[r,h]·W1[h,k] + b1[k]) 0 · W2[k,q]) + b2[q],
  with 12 and with 5 outputs; and, with the features regrouped as 256 molecules of 48 atoms, the pairwise head over every
  ordered pair (l, m) of atoms of a molecule,
    (Σ_p max ((Σ_h x[b,l,h]·Wt[h,p] + Σ_h x[b,m,h]·Wb[h,p]) + b1[p]) 0 · W2[p,q]) + b2[q],
  `Wt`, `Wb` the upper and the lower 128 rows of the 256-row weight, laid out as 589824 rows of 5.
  The kernel program computes the heads block by block of 1536 rows in its first region and the pairwise head block by
  block of 16 molecules in its second, with two products over 128 features; the reference computes each head with whole
  products, and the pairwise head by ONE product over the 256 features of the concatenation of atom l's and atom m's
  features. A sum over 256 terms is the sum of its halves (additions only: no finiteness is used), every change of
  float format is the identity on the extended reals, and a product into a zero accumulator is the plain sum: the two
  programs' results are one function of the arguments (Proof/Spec.lean), index by index.
  The pieces: Proof/KernelRun.lean (the kernel program's run with its results at the last boundary's contents),
  Proof/KernelFold.lean (those contents read back to the regions' arrays and the launch memory), Proof/HeadArrays.lean and
  Proof/PairArrays.lean (each region's output arrays as the specification's functions of the region-entry arrays),
  Proof/RefValue.lean (the reference's stages as the same functions).
-/
import proofs.«125245_j27900107555247_1_alg».proof.Defs
import proofs.«125245_j27900107555247_1_alg».proof.Proof.Gen.Kernel
import proofs.«125245_j27900107555247_1_alg».proof.Proof.Gen.Kernel.Skeleton
import proofs.«125245_j27900107555247_1_alg».proof.Proof.Gen.Kernel.Launch
import proofs.«125245_j27900107555247_1_alg».proof.Proof.Gen.Kernel.Points
import proofs.«125245_j27900107555247_1_alg».proof.Proof.Gen.Kernel.Frame
import proofs.«125245_j27900107555247_1_alg».proof.Proof.Gen.KernelIdeal
import proofs.«125245_j27900107555247_1_alg».proof.Proof.Gen.KernelIdeal.Skeleton
import proofs.«125245_j27900107555247_1_alg».proof.Proof.Gen.KernelIdeal.Launch
import proofs.«125245_j27900107555247_1_alg».proof.Proof.Gen.KernelIdeal.Points
import proofs.«125245_j27900107555247_1_alg».proof.Proof.Gen.KernelIdeal.Frame
import proofs.«125245_j27900107555247_1_alg».proof.Proof.Gen.ReferenceIdeal
import proofs.«125245_j27900107555247_1_alg».proof.Proof.Gen.Pre_finite_inputs
import proofs.«125245_j27900107555247_1_alg».proof.Proof.Gen.ReferenceIdeal.Run
import proofs.«125245_j27900107555247_1_alg».proof.Proof.Gen.ReferenceIdeal.Read
import proofs.«125245_j27900107555247_1_alg».proof.Proof.Spec
import proofs.«125245_j27900107555247_1_alg».proof.Proof.KernelRun
import proofs.«125245_j27900107555247_1_alg».proof.Proof.KernelFold
import proofs.«125245_j27900107555247_1_alg».proof.Proof.HeadArrays
import proofs.«125245_j27900107555247_1_alg».proof.Proof.PairArrays
import proofs.«125245_j27900107555247_1_alg».proof.Proof.RefValue
import Idealize.ShloMosaic.Adequacy
import Idealize.ShloMosaic.Init

set_option maxRecDepth 16384

noncomputable section

open Idealize.ShloMosaic Idealize.ShloMosaic.TcCoe Idealize.SL.Sem

/-! ## The kernel program's results, as functions of the launch memory -/

namespace Cert.KernelIdeal.Results

open Cert.KernelIdeal Cert.KernelIdeal.Gen

variable (m : (ℓ : Loc nD τ sig) → Buf (Elt Ideal) ℓ) (ρ : Dev nD → PrngReg)

/-- The 12-output head of the launched arrays. -/
abbrev sym (c : Dev nD) : Buf (Elt Ideal) ((c.tc : Thread nD τ).loc main_v0_0) :=
  Cert.Spec.head (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))

/-- The 5-output head of the launched arrays. -/
abbrev chg (c : Dev nD) : Buf (Elt Ideal) ((c.tc : Thread nD τ).loc main_v0_1) :=
  Cert.Spec.head (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))

/-- The pairwise head of the launched arrays, features regrouped by molecule, the weight split in its halves, laid out
    as 589824 rows of 5. -/
abbrev bonds (c : Dev nD) : Buf (Elt Ideal) ((c.tc : Thread nD τ).loc main_v5) :=
  shapeCast S589824x5
    (Cert.Spec.pair (shapeCast S256x48x128 (m ((c.tc : Thread nD τ).loc main_arg0)) shapeCasts_S12288x128_S256x48x128)
      (extractStridedSlice S128x128 ![0, 0] (m ((c.tc : Thread nD τ).loc main_arg10)) slices_S256x128_S128x128_0_0)
      (extractStridedSlice S128x128 ![128, 0] (m ((c.tc : Thread nD τ).loc main_arg10)) slices_S256x128_S128x128_128_0)
      (m ((c.tc : Thread nD τ).loc main_arg11)) (m ((c.tc : Thread nD τ).loc main_arg12)) (m ((c.tc : Thread nD τ).loc main_arg13)))
    shapeCasts_S256x48x48x5_S589824x5

/-- The idealized kernel program runs, its three results end at those functions of the launch memory, and its
    arguments end unchanged: the run to the last boundary, the boundary's contents read back to the regions' output
    arrays, each of those the specification's function of its region's entry arrays. -/
theorem run : θ_run (defs (F := Ideal)) (onTc (τ := τ) (main (F := Ideal))) ⟨m, fun _ => 0, ρ⟩ (fun r => ∀ c : Dev nD,
      r.2.mem ((c.tc : Thread nD τ).loc main_v0_0) = sym m c
      ∧ r.2.mem ((c.tc : Thread nD τ).loc main_v0_1) = chg m c
      ∧ r.2.mem ((c.tc : Thread nD τ).loc main_v5) = bonds m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
      obtain ⟨h0, h1, h2, hargs⟩ := h c
      refine ⟨h0.trans ?_, h1.trans ?_, h2.trans ?_, hargs⟩
      · exact (Cert.KernelIdeal.Fold.W4_main_v0_0 m ρ c).trans (Cert.KernelIdeal.Heads.final_sym (V0 m ρ) c)
      · exact (Cert.KernelIdeal.Fold.W4_main_v0_1 m ρ c).trans (Cert.KernelIdeal.Heads.final_chg (V0 m ρ) c)
      · rw [Cert.KernelIdeal.Fold.W4_main_v5, Cert.KernelIdeal.Pairs.final_pair (V2 m ρ) c,
          Cert.KernelIdeal.Fold.V2_main_v1, Cert.KernelIdeal.Fold.V2_main_v2, Cert.KernelIdeal.Fold.V2_main_v3,
          Cert.KernelIdeal.Fold.V2_main_arg11, Cert.KernelIdeal.Fold.V2_main_arg12, Cert.KernelIdeal.Fold.V2_main_arg13])
    (Cert.KernelIdeal.Launched.run_W4 (F := Ideal) m ρ)

end Cert.KernelIdeal.Results

/-! ## The reference's results, as the same functions of its launch memory -/

namespace Cert.ReferenceIdeal.Results

open Cert.ReferenceIdeal Cert.ReferenceIdeal.Gen Cert.ReferenceIdeal.Read

variable (m : (ℓ : Loc nD τ sig) → Buf (Elt Ideal) ℓ) (ρ : Dev nD → PrngReg)

/-- The idealized reference runs, and its three results end at the specification's functions of its launch memory (the
    last one under the reference's own final reshape), its arguments unchanged. -/
theorem run (hc : S12288x128.ShapeCasts S256x48x128) (ht : S256x128.Slices ![0, 0] S128x128) (hb : S256x128.Slices ![128, 0] S128x128) :
    θ_run (defs (F := Ideal)) (onTc (τ := τ) (main (F := Ideal))) ⟨m, fun _ => 0, ρ⟩ (fun r => ∀ c : Dev nD,
      r.2.mem ((c.tc : Thread nD τ).loc main_v8)
        = Cert.Spec.head (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v17)
        = Cert.Spec.head (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v33)
        = shapeCast S589824x5
            (Cert.Spec.pair (shapeCast S256x48x128 (m ((c.tc : Thread nD τ).loc main_arg0)) hc)
              (extractStridedSlice S128x128 ![0, 0] (m ((c.tc : Thread nD τ).loc main_arg10)) ht)
              (extractStridedSlice S128x128 ![128, 0] (m ((c.tc : Thread nD τ).loc main_arg10)) hb)
              (m ((c.tc : Thread nD τ).loc main_arg11)) (m ((c.tc : Thread nD τ).loc main_arg12)) (m ((c.tc : Thread nD τ).loc main_arg13)))
            shapeCasts_S256x48x48x5_S589824x5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
      obtain ⟨h0, h1, h2, hargs⟩ := h c
      refine ⟨h0.trans ?_, h1.trans ?_, h2.trans ?_, hargs⟩
      · rw [val_main_v8_eq, Cert.ReferenceIdeal.RefValue.sym_eq]
      · rw [val_main_v17_eq, Cert.ReferenceIdeal.RefValue.chg_eq]
      · rw [val_main_v33_eq]
        unfold val_main_v33
        rw [Cert.ReferenceIdeal.RefValue.pair_eq _ _ _ _ _ hc ht hb])
    (Cert.ReferenceIdeal.Value.run (F := Ideal) m ρ)

end Cert.ReferenceIdeal.Results

/-! ## The claims -/

namespace Cert.Proof

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both idealized programs end at the specification's three functions, of memories that agree on the arguments. -/
theorem algebraic : Cert.algebraic_KernelIdeal_ReferenceIdeal := by
  intro m ρ m' ρ' _ hagree
  refine ⟨Cert.KernelIdeal.Results.sym m, Cert.KernelIdeal.Results.chg m, Cert.KernelIdeal.Results.bonds m,
    Cert.KernelIdeal.Results.run m ρ, ?_⟩
  refine (θ_run Cert.ReferenceIdeal.defs _ _).mono (fun r h c => ?_)
    (Cert.ReferenceIdeal.Results.run m' ρ' Cert.KernelIdeal.Facts₀.shapeCasts_S12288x128_S256x48x128
      Cert.KernelIdeal.Facts₀.slices_S256x128_S128x128_0_0 Cert.KernelIdeal.Facts₀.slices_S256x128_S128x128_128_0)
  obtain ⟨h0, h1, h2, hargs⟩ := h c
  obtain ⟨a0, a1, a2, a3, a4, a5, a6, a7, a8, a9, a10, a11, a12, a13⟩ := hagree c
  refine ⟨h0.trans ?_, h1.trans ?_, h2.trans ?_, hargs⟩
  · rw [a0, a2, a3, a4, a5]
  · rw [a0, a6, a7, a8, a9]
  · rw [a0, a10, a11, a12, a13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
